-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S256x40 .f32) (main_arg10 : FVec F S40 .f32) (main_v33 : IVec S_ 1) : IVec S_ 1 :=
  let main_v34 : FVec F S256x40 .f32 := Host.absf main_arg9
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S128 .f32) (main_arg7 : FVec F S128x256 .f32) (main_arg8 : FVec F S256 .f32) (main_arg9 : FVec F S256x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x256 .f32) (main_arg8 : FVec F S256 .f32) (main_arg9 : FVec F S256x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x256 : Shape := ⟨2, ![1, 256]⟩
abbrev S1x40 : Shape := ⟨2, ![1, 40]⟩
abbrev S50000x40 : Shape := ⟨2, ![50000, 40]⟩
abbrev S5000x40 : Shape := ⟨2, ![5000, 40]⟩
abbrev S5000x256 : Shape := ⟨2, ![5000, 256]⟩

abbrev nBuf : Space → Nat
  | .hbm => 71
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x40, .f32⟩
  | .hbm, ⟨10, _⟩ => ⟨S40, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x1, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S50000x1, .f32⟩
  | .hbm, ⟨65, _⟩ => ⟨S50000x1, .f32⟩
  | .hbm, ⟨66, _⟩ => ⟨S1x128, .f32⟩
  | .hbm, ⟨67, _⟩ => ⟨S50000x128, .f32⟩
  | .hbm, ⟨68, _⟩ => ⟨S1x256, .f32⟩
  | .hbm, ⟨69, _⟩ => ⟨S1x40, .f32⟩
  | .hbm, ⟨70, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x256, .f32⟩
  | .local _ .vmem, ⟨23, _⟩ => ⟨S1x256, .f32⟩
  | .local _ .vmem, ⟨24, _⟩ => ⟨S256x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S256_S1x256 : S256.ShapeCasts S1x256
  shapeCasts_S40_S1x40 : S40.ShapeCasts S1x40
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x40.size a ≤ S256x40.size a
  hwx2_3 : ∀ i : grid2.Coords, EltTy.bits .f32 = 32 ∨ (Rect.block (s := S256x40) S256x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x256 : Shape := ⟨2, ![50000, 256]⟩
abbrev S1x256 : Shape := ⟨2, ![1, 256]⟩
abbrev S50000x40 : Shape := ⟨2, ![50000, 40]⟩
abbrev S1x40 : Shape := ⟨2, ![1, 40]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x40, .f32⟩
  | .hbm, ⟨10, _⟩ => ⟨S40, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x256, .f32⟩
  | .hbm, ⟨100, _⟩ => ⟨S1x256, .f32⟩
  | .hbm, ⟨101, _⟩ => ⟨S50000x256, .f32⟩
  | .hbm, ⟨102, _⟩ => ⟨S50000x256, .f32⟩
  | .hbm, ⟨103, _⟩ => ⟨S_, .f32⟩
  | .hbm, ⟨104, _⟩ => ⟨S_, .f32⟩
  | .hbm, ⟨105, _⟩ => ⟨S50000x256, .f32⟩
  | .hbm, ⟨106, _⟩ => ⟨S50000x256, .i1⟩
  | .hbm, ⟨107, _⟩ => ⟨S_, .f32⟩
  | .hbm, ⟨108, _⟩ => ⟨S50000x256, .f32⟩
  | .hbm, ⟨109, _⟩ => ⟨S50000x256, .f32⟩
  | .hbm, ⟨110, _⟩ => ⟨S50000x256, .f32⟩
  | .hbm, ⟨111, _⟩ => ⟨S50000x40, .f32⟩
  | .hbm, ⟨112, _⟩ => ⟨S1x40, .f32⟩
  | .hbm, ⟨113, _⟩ => ⟨S50000x40, .f32⟩
  | .hbm, ⟨114, _⟩ => ⟨S50000x40, .f32⟩
  | .hbm, ⟨115, _⟩ => ⟨S_, .f32⟩
  | .hbm, ⟨116, _⟩ => ⟨S_, .f32⟩
  | .hbm, ⟨117, _⟩ => ⟨S50000x40, .f32⟩
  | .hbm, ⟨118, _⟩ => ⟨S50000x40, .i1⟩
  | .hbm, ⟨119, _⟩ => ⟨S_, .f32⟩
  | .hbm, ⟨120, _⟩ => ⟨S50000x40, .f32⟩
  | .hbm, ⟨121, _⟩ => ⟨S50000x40, .f32⟩
  | .hbm, ⟨122, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v77 : Ref sig .tc := ⟨.hbm, 122, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  dot_S50000x256_S256x40_S50000x40_1_0_0_1_n_n_wf : DotDims.WF S50000x256 S256x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Spec.lean ====
/-
  The two dense layers of the network as functions of whole arrays, entry by entry, on the extended reals.

  * `stageAt`: one graph-convolution finishing step. Row p of the aggregated features is scaled by the column entry
    a p, multiplied by the weight matrix, the bias row added, the result clipped below at zero and scaled by the
    column entry b p:   max (∑ k, (h p k · a p) · W k q + bias q) 0 · b p.
  * `leaky`: the leaky rectifier, y where y ≥ 0 and slope · y elsewhere, with the slope the binary value nearest 0.01.
  * `mlpAt`: the two-layer head, leaky (∑ j, leaky (∑ k, x p k · W₁ k j + c₁ j) · W₂ j q + c₂ q).
  The sizes are parameters: the same function describes one block of rows and the whole array.
-/
import Idealize.ShloMosaic.Lib.ValueIdx
import Idealize.ShloMosaic.PureOps.Ideal.Laws

noncomputable section

namespace Cert.Spec

open Idealize.ShloMosaic Idealize.ShloMosaic.ValueIdx

/-- The value of the zero word. -/
abbrev zeroW : Ideal .f32 := Ideal.ofBits .f32 0x00000000#32
/-- The rectifier's slope: the single-precision number nearest 0.01. -/
abbrev slopeW : Ideal .f32 := Ideal.ofBits .f32 0x3C23D70A#32

/-- The leaky rectifier on one extended real. -/
def leaky (y : Ideal .f32) : Ideal .f32 := Scalar.select (FloatOps.cmpf .oge y zeroW) y (slopeW * y)

variable {N D E H C : ℕ}

/-- Entry (p, q) of a graph-convolution finishing step. -/
def stageAt (h : FVec Ideal ⟨2, ![N, D]⟩ .f32) (a b : FVec Ideal ⟨2, ![N, 1]⟩ .f32) (W : FVec Ideal ⟨2, ![D, E]⟩ .f32)
    (bias : FVec Ideal ⟨2, ![1, E]⟩ .f32) (p : Fin N) (q : Fin E) : Ideal .f32 :=
  max ((∑ k : Fin D, (h (ix2 p k) * a (ix2 p (0 : Fin 1))) * W (ix2 k q)) + bias (ix2 (0 : Fin 1) q)) zeroW * b (ix2 p (0 : Fin 1))

/-- The finishing step as an array. -/
def stageArr (h : FVec Ideal ⟨2, ![N, D]⟩ .f32) (a b : FVec Ideal ⟨2, ![N, 1]⟩ .f32) (W : FVec Ideal ⟨2, ![D, E]⟩ .f32)
    (bias : FVec Ideal ⟨2, ![1, E]⟩ .f32) : FVec Ideal ⟨2, ![N, E]⟩ .f32 :=
  fun i => stageAt h a b W bias (i 0) (i 1)

theorem stageArr_apply (h : FVec Ideal ⟨2, ![N, D]⟩ .f32) (a b : FVec Ideal ⟨2, ![N, 1]⟩ .f32) (W : FVec Ideal ⟨2, ![D, E]⟩ .f32)
    (bias : FVec Ideal ⟨2, ![1, E]⟩ .f32) (p : Fin N) (q : Fin E) :
    stageArr h a b W bias (ix2 p q) = stageAt h a b W bias p q := rfl

/-- Entry (p, j) of the head's hidden layer. -/
def hiddenAt (x : FVec Ideal ⟨2, ![N, D]⟩ .f32) (W1 : FVec Ideal ⟨2, ![D, H]⟩ .f32) (c1 : FVec Ideal ⟨2, ![1, H]⟩ .f32)
    (p : Fin N) (j : Fin H) : Ideal .f32 :=
  leaky ((∑ k : Fin D, x (ix2 p k) * W1 (ix2 k j)) + c1 (ix2 (0 : Fin 1) j))

/-- Entry (p, q) of the two-layer head. -/
def mlpAt (x : FVec Ideal ⟨2, ![N, D]⟩ .f32) (W1 : FVec Ideal ⟨2, ![D, H]⟩ .f32) (c1 : FVec Ideal ⟨2, ![1, H]⟩ .f32)
    (W2 : FVec Ideal ⟨2, ![H, C]⟩ .f32) (c2 : FVec Ideal ⟨2, ![1, C]⟩ .f32) (p : Fin N) (q : Fin C) : Ideal .f32 :=
  leaky ((∑ j : Fin H, hiddenAt x W1 c1 p j * W2 (ix2 j q)) + c2 (ix2 (0 : Fin 1) q))

/-- The head as an array. -/
def mlpArr (x : FVec Ideal ⟨2, ![N, D]⟩ .f32) (W1 : FVec Ideal ⟨2, ![D, H]⟩ .f32) (c1 : FVec Ideal ⟨2, ![1, H]⟩ .f32)
    (W2 : FVec Ideal ⟨2, ![H, C]⟩ .f32) (c2 : FVec Ideal ⟨2, ![1, C]⟩ .f32) : FVec Ideal ⟨2, ![N, C]⟩ .f32 :=
  fun i => mlpAt x W1 c1 W2 c2 (i 0) (i 1)

theorem mlpArr_apply (x : FVec Ideal ⟨2, ![N, D]⟩ .f32) (W1 : FVec Ideal ⟨2, ![D, H]⟩ .f32) (c1 : FVec Ideal ⟨2, ![1, H]⟩ .f32)
    (W2 : FVec Ideal ⟨2, ![H, C]⟩ .f32) (c2 : FVec Ideal ⟨2, ![1, C]⟩ .f32) (p : Fin N) (q : Fin C) :
    mlpArr x W1 c1 W2 c2 (ix2 p q) = mlpAt x W1 c1 W2 c2 p q := rfl

/-- A finishing step depends on row p of its row-indexed operands only: operands that agree on the rows p and p'
    give the same entries there. This is what lets a block of rows be computed from the blocks of the operands. -/
theorem stageAt_congr {N' : ℕ} (h : FVec Ideal ⟨2, ![N, D]⟩ .f32) (a b : FVec Ideal ⟨2, ![N, 1]⟩ .f32)
    (h' : FVec Ideal ⟨2, ![N', D]⟩ .f32) (a' b' : FVec Ideal ⟨2, ![N', 1]⟩ .f32)
    (W : FVec Ideal ⟨2, ![D, E]⟩ .f32) (bias : FVec Ideal ⟨2, ![1, E]⟩ .f32) (p : Fin N) (p' : Fin N') (q : Fin E)
    (hh : ∀ k : Fin D, h' (ix2 p' k) = h (ix2 p k)) (ha : a' (ix2 p' (0 : Fin 1)) = a (ix2 p (0 : Fin 1)))
    (hb : b' (ix2 p' (0 : Fin 1)) = b (ix2 p (0 : Fin 1))) :
    stageAt h' a' b' W bias p' q = stageAt h a b W bias p q := by
  unfold stageAt
  rw [ha, hb]
  simp only [hh]

/-- The head depends on row p of its input only. -/
theorem mlpAt_congr {N' : ℕ} (x : FVec Ideal ⟨2, ![N, D]⟩ .f32) (x' : FVec Ideal ⟨2, ![N', D]⟩ .f32)
    (W1 : FVec Ideal ⟨2, ![D, H]⟩ .f32) (c1 : FVec Ideal ⟨2, ![1, H]⟩ .f32)
    (W2 : FVec Ideal ⟨2, ![H, C]⟩ .f32) (c2 : FVec Ideal ⟨2, ![1, C]⟩ .f32) (p : Fin N) (p' : Fin N') (q : Fin C)
    (hx : ∀ k : Fin D, x' (ix2 p' k) = x (ix2 p k)) :
    mlpAt x' W1 c1 W2 c2 p' q = mlpAt x W1 c1 W2 c2 p q := by
  unfold mlpAt hiddenAt
  simp only [hx]

end Cert.Spec

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.StageBlock.lean ====
/-
  The value of the two graph-convolution finishing regions. Each region runs one body over a grid of ten points;
  point t works on rows 5000·t … 5000·t + 4999 of the row-indexed arrays.

  * `pay0_apply`, `pay1_apply`: the body's stored value at entry (p, q) of a block is
        max (∑ k, (h p k · a p) · W k q + bias q) 0 · b p
    of the blocks it loaded. A scale column spread along the rows reads the column at row p; the bias row spread down
    the columns reads the row at q; the product into the zero array is the finite sum over the contraction
    coordinate; rounding to the short format is the identity on the extended reals.
  * per window, the block at point t read off its array: row 5000·t + p for the three row-blocked inputs, the whole
    array for the weights and the bias.
  * `flushed0_eq`, `flushed1_eq`: what point t writes back is block t of the finishing step of the WHOLE arrays,
    because an entry of the step depends on one row of its row-indexed operands only.
  * `covered0`, `covered1`: row r lies in the block of point r / 5000, so the ten blocks cover the output array.
  * `final0`, `final1`: so after the region the output array is the finishing step of the region's input arrays.
-/
import proofs.«107048_j51771535786035_1_alg».proof.Proof.KernelIdealFrameP
import proofs.«107048_j51771535786035_1_alg».proof.Proof.Spec
import proofs.«107048_j51771535786035_1_alg».proof.Proof.LibMatmulPlain
import proofs.«107048_j51771535786035_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StageValue

open Cert.KernelIdeal Cert.KernelIdeal.Gen Idealize.ShloMosaic Idealize.ShloMosaic.TcCoe Idealize.ShloMosaic.ValueIdx Idealize.SL.Sem
open Idealize.ShloMosaic.Pipeline (Dat)

/-! ## The body's stored value, entry by entry -/

/-- A scale column, recast to its own shape and spread along the rows, reads at (p, c) the column's entry p. -/
theorem col_spread_apply (x : Vec Ideal S5000x1 .f32) (p : Fin 5000) (c : Fin 128) :
    broadcastTo S5000x128 (shapeCast S5000x1 x shapeCasts_S5000x1_S5000x1) broadcasts_S5000x1_S5000x128 (ix2 p c)
      = x (ix2 p (0 : Fin 1)) :=
  (Cert.ColumnForms.broadcastTo_a1_ab_apply _ _ p c).trans (congrFun (shapeCast_self x _) _)

/-- The bias row, recast to its own shape and spread down the columns, reads at (p, c) the row's entry c. -/
theorem row_spread_apply (x : Vec Ideal S1x128 .f32) (p : Fin 5000) (c : Fin 128) :
    broadcastTo S5000x128 (shapeCast S1x128 x shapeCasts_S1x128_S1x128) broadcasts_S1x128_S5000x128 (ix2 p c)
      = x (ix2 (0 : Fin 1) c) :=
  (broadcastTo_1b_ab_apply _ _ p c).trans (congrFun (shapeCast_self x _) _)

/-- The block's matrix product into the zero array: at (p, q) the sum over k of left (p, k) · right (k, q). -/
theorem product_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  MatmulPlain.matmul_zero_apply none l r p q

/-- The stored value of the first region's body at entry (p, q) of a block: the scaled row times the weights, plus
    the bias, clipped below at zero, scaled again. Rounding to the short format is the identity on the extended reals. -/
theorem pay0_apply (x0 : Vec Ideal S5000x128 .f32) (x1 x2 : Vec Ideal S5000x1 .f32) (x3 : Vec Ideal S128x128 .f32)
    (x4 : Vec Ideal S1x128 .f32) (p : Fin 5000) (q : Fin 128) :
    k0_pay1 x0 x1 x3 x4 x2 (ix2 p q) = Cert.Spec.stageAt x0 x1 x2 x3 x4 p q := by
  unfold k0_pay1 Cert.Spec.stageAt
  refine (mulf_apply _ _ _).trans ?_
  refine congrArg₂ (· * ·) ?_ (col_spread_apply x2 p q)
  refine (maximumf_apply _ _ _).trans ?_
  refine congrArg₂ max ?_ rfl
  refine (addf_apply _ _ _).trans ?_
  refine congrArg₂ (· + ·) ?_ (row_spread_apply x4 p q)
  refine (product_apply _ _ p q).trans ?_
  refine Finset.sum_congr rfl fun k _ => ?_
  refine congrArg₂ (· * ·) ?_ (truncf_apply (ψ := .bf16) x3 bitsLt_bf16_f32 (ix2 k q))
  refine (truncf_apply (ψ := .bf16) _ bitsLt_bf16_f32 (ix2 p k)).trans ((mulf_apply _ _ _).trans ?_)
  exact congrArg₂ (· * ·) (congrFun (shapeCast_self x0 _) _) (col_spread_apply x1 p k)

/-- The second region runs the same function: its stored value is the first region's. -/
theorem pay1_eq_pay0 : k1_pay1 (F := Ideal) = k0_pay1 := rfl

/-- The stored value of the second region's body at entry (p, q) of a block: the same expression. -/
theorem pay1_apply (x0 : Vec Ideal S5000x128 .f32) (x1 x2 : Vec Ideal S5000x1 .f32) (x3 : Vec Ideal S128x128 .f32)
    (x4 : Vec Ideal S1x128 .f32) (p : Fin 5000) (q : Fin 128) :
    k1_pay1 x0 x1 x3 x4 x2 (ix2 p q) = Cert.Spec.stageAt x0 x1 x2 x3 x4 p q := by
  rw [pay1_eq_pay0]; exact pay0_apply x0 x1 x2 x3 x4 p q

/-! ## From blocks to the array -/

section Blocks
variable (V : (c : Dev nD) → (b : Ref sig .tc) → Buf (Elt Ideal) ((c : Thread nD τ).loc b))

/-- The body reads and writes whole staging buffers: every offset is zero. -/
theorem zero_offsets : (![0, 0] : Fin 2 → Nat) = fun _ => 0 := funext fun a => by fin_cases a <;> rfl

/-- One entry of a block of the finishing step. If row p of the feature block and of the two scale-column blocks is row r
    of the arrays, and the weight and bias blocks are the whole arrays, the body's stored value at (p, q) is the
    finishing step of the arrays at (r, q). -/
theorem stage_entry_of_rows (H : FVec Ideal S50000x128 .f32) (A B : FVec Ideal S50000x1 .f32) (W : FVec Ideal S128x128 .f32)
    (bias : FVec Ideal S1x128 .f32) (x0 : Vec Ideal S5000x128 .f32) (x1 x2 : Vec Ideal S5000x1 .f32)
    (x3 : Vec Ideal S128x128 .f32) (x4 : Vec Ideal S1x128 .f32) (p : Fin 5000) (q : Fin 128) (r : Fin 50000)
    (h0 : ∀ k : Fin 128, x0 (ix2 p k) = H (ix2 r k)) (h1 : x1 (ix2 p (0 : Fin 1)) = A (ix2 r (0 : Fin 1)))
    (h2 : x2 (ix2 p (0 : Fin 1)) = B (ix2 r (0 : Fin 1))) (h3 : x3 = W) (h4 : x4 = bias)
    (i : S50000x128.Idx) (hi : i = ix2 r q) :
    k0_pay1 x0 x1 x3 x4 x2 (ix2 p q) = Cert.Spec.stageArr H A B W bias i := by
  subst h3 h4 hi
  rw [pay0_apply, Cert.Spec.stageArr_apply]
  exact Cert.Spec.stageAt_congr H A B x0 x1 x2 x3 x4 r p q h0 h1 h2

/-! ### The first region -/

/-- The windows' index maps over the ten points: the feature window, the two scale columns and the output sit at block
    row t; the weights and the bias at block (0, 0) throughout. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point t is rows 5000·t … 5000·t + 4999 of its array. -/
theorem featBlock0_apply (c : Dev nD) (t : Fin cfg0.N) (p : Fin 5000) (k : Fin 128) (r : Fin 50000)
    (hr : r.val = 5000 * t.val + p.val) :
    (iblk0 V c 0 t : Vec Ideal S5000x128 .f32) (ix2 p k) = (V c main_v25 : Vec Ideal S50000x128 .f32) (ix2 r k) := by
  obtain ⟨e0, e1, -⟩ := index_facts0 t
  unfold iblk0
  rw [View.read_apply]
  show V c main_v25 _ = V c main_v25 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The first scale column's block at point t is rows 5000·t … 5000·t + 4999 of its array. -/
theorem scaleInBlock0_apply (c : Dev nD) (t : Fin cfg0.N) (p : Fin 5000) (r : Fin 50000)
    (hr : r.val = 5000 * t.val + p.val) :
    (iblk0 V c 1 t : Vec Ideal S5000x1 .f32) (ix2 p (0 : Fin 1)) = (V c main_v26 : Vec Ideal S50000x1 .f32) (ix2 r (0 : Fin 1)) := by
  obtain ⟨-, -, e0, e1, -⟩ := index_facts0 t
  unfold iblk0
  rw [View.read_apply]
  show V c main_v26 _ = V c main_v26 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- The second scale column's block at point t is rows 5000·t … 5000·t + 4999 of its array. -/
theorem scaleOutBlock0_apply (c : Dev nD) (t : Fin cfg0.N) (p : Fin 5000) (r : Fin 50000)
    (hr : r.val = 5000 * t.val + p.val) :
    (iblk0 V c 2 t : Vec Ideal S5000x1 .f32) (ix2 p (0 : Fin 1)) = (V c main_v27 : Vec Ideal S50000x1 .f32) (ix2 r (0 : Fin 1)) := by
  obtain ⟨-, -, -, -, e0, e1, -⟩ := index_facts0 t
  unfold iblk0
  rw [View.read_apply]
  show V c main_v27 _ = V c main_v27 _
  congr 1
  funext a
  apply Fin.ext
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- The weight window's block is the whole weight matrix at every point. -/
theorem weightBlock0_eq (c : Dev nD) (t : Fin cfg0.N) :
    (iblk0 V c 3 t : Vec Ideal S128x128 .f32) = (V c main_arg3 : Vec Ideal S128x128 .f32) := by
  obtain ⟨-, -, -, -, -, -, e0, e1, -⟩ := index_facts0 t
  funext j
  obtain ⟨a, b, rfl⟩ : ∃ (a : Fin 128) (b : Fin 128), j = ix2 a b := ⟨j 0, j 1, eq_ix2 j⟩
  unfold iblk0
  rw [View.read_apply]
  show V c main_arg3 _ = V c main_arg3 _
  congr 1
  funext d
  apply Fin.ext
  match d with
  | ⟨0, _⟩ => show win0_3.index t (0 : Fin 2) * 128 + 1 * a.val = a.val; rw [e0]; omega
  | ⟨1, _⟩ => show win0_3.index t (1 : Fin 2) * 128 + 1 * b.val = b.val; rw [e1]; omega

/-- The bias window's block is the whole bias row at every point. -/
theorem biasBlock0_eq (c : Dev nD) (t : Fin cfg0.N) :
    (iblk0 V c 4 t : Vec Ideal S1x128 .f32) = (V c main_v28 : Vec Ideal S1x128 .f32) := by
  obtain ⟨-, -, -, -, -, -, -, -, e0, e1, -⟩ := index_facts0 t
  funext j
  obtain ⟨a, b, rfl⟩ : ∃ (a : Fin 1) (b : Fin 128), j = ix2 a b := ⟨j 0, j 1, eq_ix2 j⟩
  unfold iblk0
  rw [View.read_apply]
  show V c main_v28 _ = V c main_v28 _
  congr 1
  funext d
  apply Fin.ext
  match d with
  | ⟨0, _⟩ => show win0_4.index t (0 : Fin 2) * 1 + 1 * a.val = a.val; rw [e0]; omega
  | ⟨1, _⟩ => show win0_4.index t (1 : Fin 2) * 128 + 1 * b.val = b.val; rw [e1]; omega

theorem flushed0_eq (c : Dev nD) (t : Fin cfg0.N) :
    (dat0 (F := Ideal) V c).flushed 5 t = ((cfg0.win 5).blk t).view.read (Elt Ideal)
      (Cert.Spec.stageArr (V c main_v25) (V c main_v26) (V c main_v27) (V c main_arg3) (V c main_v28)) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  have ht : t.val < 10 := lt_of_lt_of_eq t.isLt N_0
  obtain ⟨-, -, -, -, -, -, -, -, -, -, e0, e1⟩ := index_facts0 t
  funext j
  obtain ⟨p, q, rfl⟩ : ∃ (p : Fin 5000) (q : Fin 128), j = ix2 p q := ⟨j 0, j 1, eq_ix2 j⟩
  have hp : p.val < 5000 := p.isLt
  have hx : (win0 5).xinj (grid0.coords t) (ix2 p q) = (ix2 p q : S5000x128.Idx) :=
    funext fun a => Fin.ext (by match a with | ⟨0, _⟩ => rfl | ⟨1, _⟩ => rfl)
  rw [View.read_apply]
  refine Eq.trans ?_ (cast_eq _ _).symm
  refine (congrArg (k0_pay1 (iblk0 V c 0 t) (iblk0 V c 1 t) (iblk0 V c 3 t) (iblk0 V c 4 t) (iblk0 V c 2 t)) hx).trans ?_
  refine stage_entry_of_rows (V c main_v25) (V c main_v26) (V c main_v27) (V c main_arg3) (V c main_v28)
    (iblk0 V c 0 t) (iblk0 V c 1 t) (iblk0 V c 2 t) (iblk0 V c 3 t) (iblk0 V c 4 t) p q ⟨5000 * t.val + p.val, by omega⟩
    (fun k => featBlock0_apply V c t p k ⟨5000 * t.val + p.val, by omega⟩ rfl)
    (scaleInBlock0_apply V c t p ⟨5000 * t.val + p.val, by omega⟩ rfl)
    (scaleOutBlock0_apply V c t p ⟨5000 * t.val + p.val, by omega⟩ rfl)
    (weightBlock0_eq V c t) (biasBlock0_eq V c t) (((View.whole main_v29).slice ((win0 5).rect t)).emb (ix2 p q)) ?_
  funext a
  apply Fin.ext
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- An index of the output array is in point t's block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v29).slice (win0_5.rect t)).set ↔ _
  rw [View.set_slice_whole, Rect.mem_set_unit]
  exact Iff.rfl

/-- The ten blocks of 5000 rows tile the output array: row r is in the block of point r / 5000. -/
theorem covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, -, -, e0, e1⟩ := index_facts0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the first region its output array holds the finishing step of the region's input arrays. -/
theorem final0 (c : Dev nD) :
    (dat0 (F := Ideal) V c).arrAt 5 cfg0.N
      = Cert.Spec.stageArr (V c main_v25) (V c main_v26) (V c main_v27) (V c main_arg3) (V c main_v28) :=
  (dat0 (F := Ideal) V c).arrAt_eq_of_cover 5 _ (fun t _ => flushed0_eq V c t) covered0

/-! ### The second region: the same function on its own arrays -/

/-- The windows' index maps over the ten points: the feature window, the two scale columns and the output sit at block
    row t; the weights and the bias at block (0, 0) throughout. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature window's block at point t is rows 5000·t … 5000·t + 4999 of its array. -/
theorem featBlock1_apply (c : Dev nD) (t : Fin cfg1.N) (p : Fin 5000) (k : Fin 128) (r : Fin 50000)
    (hr : r.val = 5000 * t.val + p.val) :
    (iblk1 V c 0 t : Vec Ideal S5000x128 .f32) (ix2 p k) = (V c main_v39 : Vec Ideal S50000x128 .f32) (ix2 r k) := by
  obtain ⟨e0, e1, -⟩ := index_facts1 t
  unfold iblk1
  rw [View.read_apply]
  show V c main_v39 _ = V c main_v39 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The first scale column's block at point t is rows 5000·t … 5000·t + 4999 of its array. -/
theorem scaleInBlock1_apply (c : Dev nD) (t : Fin cfg1.N) (p : Fin 5000) (r : Fin 50000)
    (hr : r.val = 5000 * t.val + p.val) :
    (iblk1 V c 1 t : Vec Ideal S5000x1 .f32) (ix2 p (0 : Fin 1)) = (V c main_v41 : Vec Ideal S50000x1 .f32) (ix2 r (0 : Fin 1)) := by
  obtain ⟨-, -, e0, e1, -⟩ := index_facts1 t
  unfold iblk1
  rw [View.read_apply]
  show V c main_v41 _ = V c main_v41 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- The second scale column's block at point t is rows 5000·t … 5000·t + 4999 of its array. -/
theorem scaleOutBlock1_apply (c : Dev nD) (t : Fin cfg1.N) (p : Fin 5000) (r : Fin 50000)
    (hr : r.val = 5000 * t.val + p.val) :
    (iblk1 V c 2 t : Vec Ideal S5000x1 .f32) (ix2 p (0 : Fin 1)) = (V c main_v42 : Vec Ideal S50000x1 .f32) (ix2 r (0 : Fin 1)) := by
  obtain ⟨-, -, -, -, e0, e1, -⟩ := index_facts1 t
  unfold iblk1
  rw [View.read_apply]
  show V c main_v42 _ = V c main_v42 _
  congr 1
  funext a
  apply Fin.ext
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-- The weight window's block is the whole weight matrix at every point. -/
theorem weightBlock1_eq (c : Dev nD) (t : Fin cfg1.N) :
    (iblk1 V c 3 t : Vec Ideal S128x128 .f32) = (V c main_arg5 : Vec Ideal S128x128 .f32) := by
  obtain ⟨-, -, -, -, -, -, e0, e1, -⟩ := index_facts1 t
  funext j
  obtain ⟨a, b, rfl⟩ : ∃ (a : Fin 128) (b : Fin 128), j = ix2 a b := ⟨j 0, j 1, eq_ix2 j⟩
  unfold iblk1
  rw [View.read_apply]
  show V c main_arg5 _ = V c main_arg5 _
  congr 1
  funext d
  apply Fin.ext
  match d with
  | ⟨0, _⟩ => show win1_3.index t (0 : Fin 2) * 128 + 1 * a.val = a.val; rw [e0]; omega
  | ⟨1, _⟩ => show win1_3.index t (1 : Fin 2) * 128 + 1 * b.val = b.val; rw [e1]; omega

/-- The bias window's block is the whole bias row at every point. -/
theorem biasBlock1_eq (c : Dev nD) (t : Fin cfg1.N) :
    (iblk1 V c 4 t : Vec Ideal S1x128 .f32) = (V c main_v43 : Vec Ideal S1x128 .f32) := by
  obtain ⟨-, -, -, -, -, -, -, -, e0, e1, -⟩ := index_facts1 t
  funext j
  obtain ⟨a, b, rfl⟩ : ∃ (a : Fin 1) (b : Fin 128), j = ix2 a b := ⟨j 0, j 1, eq_ix2 j⟩
  unfold iblk1
  rw [View.read_apply]
  show V c main_v43 _ = V c main_v43 _
  congr 1
  funext d
  apply Fin.ext
  match d with
  | ⟨0, _⟩ => show win1_4.index t (0 : Fin 2) * 1 + 1 * a.val = a.val; rw [e0]; omega
  | ⟨1, _⟩ => show win1_4.index t (1 : Fin 2) * 128 + 1 * b.val = b.val; rw [e1]; omega

theorem flushed1_eq (c : Dev nD) (t : Fin cfg1.N) :
    (dat1 (F := Ideal) V c).flushed 5 t = ((cfg1.win 5).blk t).view.read (Elt Ideal)
      (Cert.Spec.stageArr (V c main_v39) (V c main_v41) (V c main_v42) (V c main_arg5) (V c main_v43)) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  rw [pay1_eq_pay0]
  have ht : t.val < 10 := lt_of_lt_of_eq t.isLt N_1
  obtain ⟨-, -, -, -, -, -, -, -, -, -, e0, e1⟩ := index_facts1 t
  funext j
  obtain ⟨p, q, rfl⟩ : ∃ (p : Fin 5000) (q : Fin 128), j = ix2 p q := ⟨j 0, j 1, eq_ix2 j⟩
  have hp : p.val < 5000 := p.isLt
  have hx : (win1 5).xinj (grid1.coords t) (ix2 p q) = (ix2 p q : S5000x128.Idx) :=
    funext fun a => Fin.ext (by match a with | ⟨0, _⟩ => rfl | ⟨1, _⟩ => rfl)
  rw [View.read_apply]
  refine Eq.trans ?_ (cast_eq _ _).symm
  refine (congrArg (k0_pay1 (iblk1 V c 0 t) (iblk1 V c 1 t) (iblk1 V c 3 t) (iblk1 V c 4 t) (iblk1 V c 2 t)) hx).trans ?_
  refine stage_entry_of_rows (V c main_v39) (V c main_v41) (V c main_v42) (V c main_arg5) (V c main_v43)
    (iblk1 V c 0 t) (iblk1 V c 1 t) (iblk1 V c 2 t) (iblk1 V c 3 t) (iblk1 V c 4 t) p q ⟨5000 * t.val + p.val, by omega⟩
    (fun k => featBlock1_apply V c t p k ⟨5000 * t.val + p.val, by omega⟩ rfl)
    (scaleInBlock1_apply V c t p ⟨5000 * t.val + p.val, by omega⟩ rfl)
    (scaleOutBlock1_apply V c t p ⟨5000 * t.val + p.val, by omega⟩ rfl)
    (weightBlock1_eq V c t) (biasBlock1_eq V c t) (((View.whole main_v44).slice ((win1 5).rect t)).emb (ix2 p q)) ?_
  funext a
  apply Fin.ext
  match a with
  | ⟨0, _⟩ => show win1_5.index t (0 : Fin 2) * 5000 + 1 * p.val = 5000 * t.val + p.val; rw [e0]; omega
  | ⟨1, _⟩ => show win1_5.index t (1 : Fin 2) * 128 + 1 * q.val = q.val; rw [e1]; omega

/-- An index of the output array is in point t's block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v44).slice (win1_5.rect t)).set ↔ _
  rw [View.set_slice_whole, Rect.mem_set_unit]
  exact Iff.rfl

/-- The ten blocks of 5000 rows tile the output array: row r is in the block of point r / 5000. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, e0, e1⟩ := index_facts1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- After the second region its output array holds the finishing step of the region's input arrays. -/
theorem final1 (c : Dev nD) :
    (dat1 (F := Ideal) V c).arrAt 5 cfg1.N
      = Cert.Spec.stageArr (V c main_v39) (V c main_v41) (V c main_v42) (V c main_arg5) (V c main_v43) :=
  (dat1 (F := Ideal) V c).arrAt_eq_of_cover 5 _ (fun t _ => flushed1_eq V c t) covered1

end Blocks

end Cert.KernelIdeal.StageValue

end
-- ==== Proof.MlpBlock.lean ====
/-
  The third region of the program: the two-layer head, run at ten grid points, each on one block of 5000 rows.

  * The body's arithmetic at one entry. One dense layer is a plain matrix product into a zero array, plus a bias row
    repeated on every row, then the leaky rectifier entry by entry. On the extended reals a change of float format is
    the identity, so entry (p, j) of the hidden block is leaky (∑ k, x (p, k) · W₁ (k, j) + c₁ (0, j)), and entry (p, q) of
    the stored block is leaky (∑ j, hidden (p, j) · W₂ (j, q) + c₂ (0, q)): the specification's `mlpAt` of the blocks
    (`pay2_apply`).
  * From the blocks to the array. At point t the input window holds rows 5000·t … 5000·t + 4999 of the input array and
    the parameter windows hold their whole arrays; a row of the head reads the same row of the input only, so what point
    t writes back is rows 5000·t … 5000·t + 4999 of the head of the whole arrays. Row r lies in the block of point
    r / 5000, so the ten blocks cover the output array, which therefore ends holding the head of the arrays the region
    found (`final2`).
-/
import proofs.«107048_j51771535786035_1_alg».proof.Proof.KernelIdealFrameP
import proofs.«107048_j51771535786035_1_alg».proof.Proof.Spec
import proofs.«107048_j51771535786035_1_alg».proof.Proof.LibMatmulPlain
import proofs.«107048_j51771535786035_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MlpValue

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at an entry

One dense layer of the body is: the plain product of the (rounded, here unchanged) left array by the weights into a zero
accumulator, plus the bias row repeated on every row, then the leaky rectifier entry by entry. -/

/-- A product of an [M, K] array by a [K, N] array into zeros, plus a [1, N] row repeated on every row, at entry (p, q):
    ∑ k, left (p, k) · right (k, q) + row (0, q). -/
private theorem dense_apply {M K N : ℕ} {φ₁ φ₂ : FTy} (l : FVec Ideal ⟨2, ![M, K]⟩ φ₁) (r : FVec Ideal ⟨2, ![K, N]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (matmul (DotDims.plain M K N) none l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix2 (0 : Fin 1) q) := by
  rw [addf_apply, MatmulPlain.matmul_zero_apply, broadcastTo_1b_ab_apply, shapeCast_self]

/-- The rectifier as the body spells it (compare with the zero word, select the entry or the slope word times it) is the
    leaky rectifier of the entry. -/
private theorem leaky_apply {s : Shape} (y : FVec Ideal s .f32) (i : s.Idx) :
    select (cmpf .oge y (broadcast s (Scalar.ofBits (F := Ideal) .f32 0x00000000#32))) y
        (mulf (broadcast s (Scalar.ofBits (F := Ideal) .f32 0x3C23D70A#32)) y) i
      = Cert.Spec.leaky (y i) := rfl

/-- The hidden block as the body computes it from the input block, the first weights and the first bias row. -/
private def hiddenBlk (x0 : Vec Ideal S5000x128 .f32) (x1 : Vec Ideal S128x256 .f32) (x2 : Vec Ideal S1x256 .f32) : FVec Ideal S5000x256 .f32 :=
  have y : FVec Ideal S5000x256 .f32 :=
    addf (matmul dot_S5000x128_S128x256_S5000x256_1_0_0_1_n_n none
        (truncf .bf16 (shapeCast S5000x128 x0 shapeCasts_S5000x128_S5000x128) bitsLt_bf16_f32) (truncf .bf16 x1 bitsLt_bf16_f32)
        (constant S5000x256 .f32 0x00000000#32))
      (broadcastTo S5000x256 (shapeCast S1x256 x2 shapeCasts_S1x256_S1x256) broadcasts_S1x256_S5000x256)
  select (cmpf .oge y (broadcast S5000x256 (Scalar.ofBits .f32 0x00000000#32))) y
    (mulf (broadcast S5000x256 (Scalar.ofBits .f32 0x3C23D70A#32)) y)

/-- Entry (p, j) of the hidden block is the specification's hidden layer of the input block there. -/
private theorem hiddenBlk_apply (x0 : Vec Ideal S5000x128 .f32) (x1 : Vec Ideal S128x256 .f32) (x2 : Vec Ideal S1x256 .f32)
    (p : Fin 5000) (j : Fin 256) : hiddenBlk x0 x1 x2 (ix2 p j) = Cert.Spec.hiddenAt x0 x1 x2 p j := by
  unfold hiddenBlk Cert.Spec.hiddenAt
  refine (leaky_apply _ _).trans (congrArg Cert.Spec.leaky ?_)
  refine (dense_apply (M := 5000) (K := 128) (N := 256) _ _ x2 _ _ p j).trans ?_
  simp only [truncf_apply, shapeCast_self]

/-- The body's stored block over the hidden block: the second dense layer and its rectifier. -/
private theorem pay2_eq (x0 : Vec Ideal S5000x128 .f32) (x1 : Vec Ideal S128x256 .f32) (x2 : Vec Ideal S1x256 .f32)
    (x3 : Vec Ideal S256x40 .f32) (x4 : Vec Ideal S1x40 .f32) :
    k2_pay1 x0 x1 x2 x3 x4 =
      (have z : FVec Ideal S5000x40 .f32 :=
        addf (matmul dot_S5000x256_S256x40_S5000x40_1_0_0_1_n_n none
            (truncf .bf16 (hiddenBlk x0 x1 x2) bitsLt_bf16_f32) (truncf .bf16 x3 bitsLt_bf16_f32)
            (constant S5000x40 .f32 0x00000000#32))
          (broadcastTo S5000x40 (shapeCast S1x40 x4 shapeCasts_S1x40_S1x40) broadcasts_S1x40_S5000x40)
      select (cmpf .oge z (broadcast S5000x40 (Scalar.ofBits .f32 0x00000000#32))) z
        (mulf (broadcast S5000x40 (Scalar.ofBits .f32 0x3C23D70A#32)) z)) := rfl

/-- the body's stored value at entry (p, q) of a block -/
theorem pay2_apply (x0 : Vec Ideal S5000x128 .f32) (x1 : Vec Ideal S128x256 .f32) (x2 : Vec Ideal S1x256 .f32)
    (x3 : Vec Ideal S256x40 .f32) (x4 : Vec Ideal S1x40 .f32) (p : Fin 5000) (q : Fin 40) :
    k2_pay1 x0 x1 x2 x3 x4 (ix2 p q) = Cert.Spec.mlpAt x0 x1 x2 x3 x4 p q := by
  rw [pay2_eq]
  unfold Cert.Spec.mlpAt
  refine (leaky_apply _ _).trans (congrArg Cert.Spec.leaky ?_)
  refine (dense_apply (M := 5000) (K := 256) (N := 40) _ _ x4 _ _ p q).trans ?_
  simp only [truncf_apply, hiddenBlk_apply]

/-! ## From the blocks to the array

The grid has ten points. At point t the input window holds rows 5000·t … 5000·t + 4999 of the input array, the four
parameter windows hold their whole arrays, and the output window's block is rows 5000·t … 5000·t + 4999 of the output
array. A row of the head depends on the same row of the input only, so what point t writes back is block t of the head of
the whole arrays; the ten blocks cover the output array. -/

variable (V : (c : Dev nD) → (b : Ref sig .tc) → Buf (Elt Ideal) ((c : Thread nD τ).loc b))

private theorem zero_offsets : (![0, 0] : Fin 2 → Nat) = fun _ => 0 := funext fun a => by fin_cases a <;> rfl

/-- The block index of each window at each of the ten points: the row-blocked windows (the input and the output) are at
    block (t, 0), the parameter windows at block (0, 0). -/
private theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The input window's block at point t is rows 5000·t … 5000·t + 4999 of the input array. -/
private theorem input_block_apply (c : Dev nD) (t : Fin cfg2.N) (x : S5000x128.Idx) (i : S50000x128.Idx)
    (h0 : (i 0).val = 5000 * t.val + (x 0).val) (h1 : (i 1).val = (x 1).val) :
    (iblk2 V c 0 t : Vec Ideal S5000x128 .f32) x = (V c main_v44 : S50000x128.Idx → Elt Ideal .f32) i := by
  obtain ⟨e0, e1, -⟩ := block_indices t
  unfold iblk2
  rw [View.read_apply]
  show V c main_v44 _ = V c main_v44 _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- The first weights' window holds the whole array at every point. -/
private theorem weights1_block (c : Dev nD) (t : Fin cfg2.N) :
    (iblk2 V c 1 t : Vec Ideal S128x256 .f32) = (V c main_arg7 : S128x256.Idx → Elt Ideal .f32) := by
  obtain ⟨-, -, e0, e1, -⟩ := block_indices t
  funext y
  unfold iblk2
  rw [View.read_apply]
  show V c main_arg7 _ = V c main_arg7 y
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 256 + 1 * (y 1).val = (y 1).val; rw [e1]; omega

/-- The first bias row's window holds the whole row at every point. -/
private theorem bias1_block (c : Dev nD) (t : Fin cfg2.N) :
    (iblk2 V c 2 t : Vec Ideal S1x256 .f32) = (V c main_v45 : S1x256.Idx → Elt Ideal .f32) := by
  obtain ⟨-, -, -, -, e0, e1, -⟩ := block_indices t
  funext y
  unfold iblk2
  rw [View.read_apply]
  show V c main_v45 _ = V c main_v45 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- The second weights' window holds the whole array at every point. -/
private theorem weights2_block (c : Dev nD) (t : Fin cfg2.N) :
    (iblk2 V c 3 t : Vec Ideal S256x40 .f32) = (V c main_arg9 : S256x40.Idx → Elt Ideal .f32) := by
  obtain ⟨-, -, -, -, -, -, e0, e1, -⟩ := block_indices t
  funext y
  unfold iblk2
  rw [View.read_apply]
  show V c main_arg9 _ = V c main_arg9 y
  congr 1
  funext a
  apply Fin.ext
  match a with
  | ⟨0, _⟩ => show win2_3.index t (0 : Fin 2) * 256 + 1 * (y 0).val = (y 0).val; rw [e0]; omega
  | ⟨1, _⟩ => show win2_3.index t (1 : Fin 2) * 40 + 1 * (y 1).val = (y 1).val; rw [e1]; omega

/-- The second bias row's window holds the whole row at every point. -/
private theorem bias2_block (c : Dev nD) (t : Fin cfg2.N) :
    (iblk2 V c 4 t : Vec Ideal S1x40 .f32) = (V c main_v46 : S1x40.Idx → Elt Ideal .f32) := by
  obtain ⟨-, -, -, -, -, -, -, -, e0, e1, -⟩ := block_indices t
  funext y
  unfold iblk2
  rw [View.read_apply]
  show V c main_v46 _ = V c main_v46 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 40 + 1 * (y 1).val = (y 1).val; rw [e1]; omega

/-- One entry of a stored block: when the body's input block x0 is, on row p, row r of an array A0, entry (p, q) of what
    the body stores is entry (r, q) of the head of A0 with the same weights and bias rows. -/
private theorem block_entry (A0 : FVec Ideal S50000x128 .f32) (x0 : Vec Ideal S5000x128 .f32) (x1 : Vec Ideal S128x256 .f32)
    (x2 : Vec Ideal S1x256 .f32) (x3 : Vec Ideal S256x40 .f32) (x4 : Vec Ideal S1x40 .f32)
    (p : Fin 5000) (q : Fin 40) (r : Fin 50000) (h0 : ∀ k : Fin 128, x0 (ix2 p k) = A0 (ix2 r k)) :
    k2_pay1 x0 x1 x2 x3 x4 (ix2 p q) = Cert.Spec.mlpArr A0 x1 x2 x3 x4 (ix2 r q) := by
  rw [pay2_apply, Cert.Spec.mlpArr_apply]
  exact Cert.Spec.mlpAt_congr A0 x0 x1 x2 x3 x4 r p q h0

/-- What point t writes back is block t of the head of the arrays the region finds. -/
private theorem written_block (c : Dev nD) (t : Fin cfg2.N) :
    (dat2 (F := Ideal) V c).flushed 5 t = ((cfg2.win 5).blk t).view.read (Elt Ideal)
      (Cert.Spec.mlpArr (V c main_v44) (V c main_arg7) (V c main_v45) (V c main_arg9) (V c main_v46)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x256) zero_offsets,
    View.ld_unit_zero (S := S1x256) zero_offsets, View.ld_unit_zero (S := S256x40) zero_offsets,
    View.ld_unit_zero (S := S1x40) zero_offsets]
  rw [weights1_block, bias1_block, weights2_block, bias2_block]
  obtain ⟨-, -, -, -, -, -, -, -, -, -, e0, e1⟩ := block_indices t
  funext j
  have hj0 : (j 0).val < 5000 := (j 0).isLt
  have hj1 : (j 1).val < 40 := (j 1).isLt
  have ht : t.val < 10 := t.isLt
  have eL : (cfg2.win 5).xinj (grid2.coords t) j = ix2 (⟨(j 0).val, hj0⟩ : Fin 5000) (⟨(j 1).val, hj1⟩ : Fin 40) :=
    funext fun a => by
      match a with
      | ⟨0, _⟩ => rfl
      | ⟨1, _⟩ => rfl
  have eR : ((cfg2.win 5).blk t).view.emb j
      = ix2 (⟨5000 * t.val + (j 0).val, by omega⟩ : Fin 50000) (⟨(j 1).val, hj1⟩ : Fin 40) :=
    funext fun a => Fin.ext (by
      match a with
      | ⟨0, _⟩ => show win2_5.index t (0 : Fin 2) * 5000 + 1 * (j 0).val = 5000 * t.val + (j 0).val; rw [e0]; omega
      | ⟨1, _⟩ => show win2_5.index t (1 : Fin 2) * 40 + 1 * (j 1).val = (j 1).val; rw [e1]; omega)
  rw [View.read_apply]
  refine (congrArg (k2_pay1 (iblk2 V c 0 t) (V c main_arg7) (V c main_v45) (V c main_arg9) (V c main_v46)) eL).trans ?_
  refine (block_entry (V c main_v44) _ _ _ _ _ _ _ ⟨5000 * t.val + (j 0).val, by omega⟩ fun k => ?_).trans
    (congrArg (Cert.Spec.mlpArr (V c main_v44) (V c main_arg7) (V c main_v45) (V c main_arg9) (V c main_v46)) eR).symm
  exact input_block_apply V c t _ _ rfl rfl

/-- An index of the output array is in point t's block exactly when each coordinate is in the block's range on its axis. -/
private theorem mem_block (t : Fin cfg2.N) (i : S50000x40.Idx) :
    i ∈ ((cfg2.win 5).blk t).view.set ↔ ∀ a : Fin 2, win2_5.index t a * S5000x40.size a ≤ (i a).val
      ∧ (i a).val < win2_5.index t a * S5000x40.size a + S5000x40.size a := by
  show i ∈ ((View.whole main_v47).slice (win2_5.rect t)).set ↔ _
  rw [View.set_slice_whole, Rect.mem_set_unit]
  exact Iff.rfl

/-- The ten blocks cover the output array: row r is in the block of point r / 5000. -/
private theorem rows_covered (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  obtain ⟨t, ht⟩ : ∃ t : Fin cfg2.N, t.val = (i 0).val / 5000 :=
    ⟨⟨(i 0).val / 5000, by show (i 0).val / 5000 < 10; omega⟩, rfl⟩
  obtain ⟨-, -, -, -, -, -, -, -, -, -, e0, e1⟩ := block_indices t
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 40 ≤ (i 1).val ∧ (i 1).val < win2_5.index t (1 : Fin 2) * 40 + 40
    rw [e1]; omega

/-- After the region the output array holds the head of the arrays the region finds. -/
theorem final2 (c : Dev nD) :
    (dat2 (F := Ideal) V c).arrAt 5 cfg2.N
      = Cert.Spec.mlpArr (V c main_v44) (V c main_arg7) (V c main_v45) (V c main_arg9) (V c main_v46) :=
  (dat2 (F := Ideal) V c).arrAt_eq_of_cover 5 _ (fun t _ => written_block V c t) rows_covered

end Cert.KernelIdeal.MlpValue

end
-- ==== Proof.RefForms.lean ====
/-
  The reference network's dense layers as whole-array expressions, over arrays of any sizes and any float values.

  * `colSpread v`: an N-vector of row factors spread over the columns of an [N, D] array (a column, then its columns).
  * `rowSpread b`: a bias E-vector spread over the N rows of an [N, E] array (a row, then its rows).
  * `splat w`: the [N, E] array with the same word everywhere.
  * `layerRef`: max ((h ⊙ colSpread inv) · W + rowSpread b, 0): one graph-convolution layer after the aggregation.
  * `leakyRef`: y where y ≥ 0, slope ⊙ y elsewhere.
  * `headRef`: leakyRef (leakyRef (x · W₁ + rowSpread c₁) · W₂ + rowSpread c₂): the two-layer head.
-/
import Idealize.ShloMosaic.Lib.ValueIdx
import Idealize.ShloMosaic.PureOps.Ideal.Laws

noncomputable section

namespace Cert.RefForms

open Idealize.ShloMosaic

variable {F : FTy → Type} [FloatOps F] {N D E H C : ℕ}

/-- Row factors spread over the columns: entry (p, q) is v p. -/
def colSpread (hc1 : (⟨1, ![N]⟩ : Shape).BroadcastsInDim ⟨2, ![N, 1]⟩ (![0] : Fin 1 → Fin 2))
    (hc2 : (⟨2, ![N, 1]⟩ : Shape).BroadcastsInDim ⟨2, ![N, D]⟩ (![0, 1] : Fin 2 → Fin 2))
    (v : FVec F ⟨1, ![N]⟩ .f32) : FVec F ⟨2, ![N, D]⟩ .f32 :=
  broadcastInDim ⟨2, ![N, D]⟩ ![0, 1] hc2 (broadcastInDim ⟨2, ![N, 1]⟩ ![0] hc1 v)

/-- A bias vector spread over the rows: entry (p, q) is b q. -/
def rowSpread (hr1 : (⟨1, ![E]⟩ : Shape).BroadcastsInDim ⟨2, ![1, E]⟩ (![1] : Fin 1 → Fin 2))
    (hr2 : (⟨2, ![1, E]⟩ : Shape).BroadcastsInDim ⟨2, ![N, E]⟩ (![0, 1] : Fin 2 → Fin 2))
    (b : FVec F ⟨1, ![E]⟩ .f32) : FVec F ⟨2, ![N, E]⟩ .f32 :=
  broadcastInDim ⟨2, ![N, E]⟩ ![0, 1] hr2 (broadcastInDim ⟨2, ![1, E]⟩ ![1] hr1 b)

/-- The array holding one word everywhere. -/
def splat (hz : (⟨0, ![]⟩ : Shape).BroadcastsInDim ⟨2, ![N, E]⟩ (![] : Fin 0 → Fin 2)) (w : BitVec 32) :
    FVec F ⟨2, ![N, E]⟩ .f32 :=
  broadcastInDim ⟨2, ![N, E]⟩ ![] hz (constant (F := F) ⟨0, ![]⟩ .f32 w)

/-- One graph-convolution layer after the aggregation: scale the rows, multiply by the weights, add the bias, clip at zero. -/
def layerRef (dd : DotDims ⟨2, ![N, D]⟩ ⟨2, ![D, E]⟩ ⟨2, ![N, E]⟩)
    (hc1 : (⟨1, ![N]⟩ : Shape).BroadcastsInDim ⟨2, ![N, 1]⟩ (![0] : Fin 1 → Fin 2))
    (hc2 : (⟨2, ![N, 1]⟩ : Shape).BroadcastsInDim ⟨2, ![N, D]⟩ (![0, 1] : Fin 2 → Fin 2))
    (hr1 : (⟨1, ![E]⟩ : Shape).BroadcastsInDim ⟨2, ![1, E]⟩ (![1] : Fin 1 → Fin 2))
    (hr2 : (⟨2, ![1, E]⟩ : Shape).BroadcastsInDim ⟨2, ![N, E]⟩ (![0, 1] : Fin 2 → Fin 2))
    (hz : (⟨0, ![]⟩ : Shape).BroadcastsInDim ⟨2, ![N, E]⟩ (![] : Fin 0 → Fin 2))
    (h : FVec F ⟨2, ![N, D]⟩ .f32) (inv : FVec F ⟨1, ![N]⟩ .f32) (W : FVec F ⟨2, ![D, E]⟩ .f32) (b : FVec F ⟨1, ![E]⟩ .f32) :
    FVec F ⟨2, ![N, E]⟩ .f32 :=
  maximumf (addf (Host.dotGeneral dd none (mulf h (colSpread hc1 hc2 inv)) W) (rowSpread hr1 hr2 b)) (splat hz 0x00000000#32)

/-- The leaky rectifier on an array. -/
def leakyRef (hz : (⟨0, ![]⟩ : Shape).BroadcastsInDim ⟨2, ![N, E]⟩ (![] : Fin 0 → Fin 2)) (y : FVec F ⟨2, ![N, E]⟩ .f32) :
    FVec F ⟨2, ![N, E]⟩ .f32 :=
  select (cmpf .oge y (splat hz 0x00000000#32)) y
    (mulf (broadcastInDim ⟨2, ![N, E]⟩ ![] hz (id (constant (F := F) ⟨0, ![]⟩ .f32 0x3C23D70A#32))) y)

/-- The two-layer head. -/
def headRef (dd1 : DotDims ⟨2, ![N, D]⟩ ⟨2, ![D, H]⟩ ⟨2, ![N, H]⟩) (dd2 : DotDims ⟨2, ![N, H]⟩ ⟨2, ![H, C]⟩ ⟨2, ![N, C]⟩)
    (h1r1 : (⟨1, ![H]⟩ : Shape).BroadcastsInDim ⟨2, ![1, H]⟩ (![1] : Fin 1 → Fin 2))
    (h1r2 : (⟨2, ![1, H]⟩ : Shape).BroadcastsInDim ⟨2, ![N, H]⟩ (![0, 1] : Fin 2 → Fin 2))
    (h1z : (⟨0, ![]⟩ : Shape).BroadcastsInDim ⟨2, ![N, H]⟩ (![] : Fin 0 → Fin 2))
    (h2r1 : (⟨1, ![C]⟩ : Shape).BroadcastsInDim ⟨2, ![1, C]⟩ (![1] : Fin 1 → Fin 2))
    (h2r2 : (⟨2, ![1, C]⟩ : Shape).BroadcastsInDim ⟨2, ![N, C]⟩ (![0, 1] : Fin 2 → Fin 2))
    (h2z : (⟨0, ![]⟩ : Shape).BroadcastsInDim ⟨2, ![N, C]⟩ (![] : Fin 0 → Fin 2))
    (x : FVec F ⟨2, ![N, D]⟩ .f32) (W1 : FVec F ⟨2, ![D, H]⟩ .f32) (c1 : FVec F ⟨1, ![H]⟩ .f32)
    (W2 : FVec F ⟨2, ![H, C]⟩ .f32) (c2 : FVec F ⟨1, ![C]⟩ .f32) : FVec F ⟨2, ![N, C]⟩ .f32 :=
  leakyRef h2z (addf (Host.dotGeneral dd2 none
      (leakyRef h1z (addf (Host.dotGeneral dd1 none x W1) (rowSpread h1r1 h1r2 c1))) W2) (rowSpread h2r1 h2r2 c2))

end Cert.RefForms

end
-- ==== Proof.KernelValue.lean ====
/-
  What the kernel program's result array holds after the run, as one function of the eleven argument arrays.

  The program is three pallas_call regions among stretches of host operations. Reading the buffers' contents forward
  through the segment boundaries:
    * the first host stretch computes the two degree factors io = 1/sqrt(max(out-degree, 1)), ii = 1/sqrt(max(in-degree, 1))
      and the first neighbour sum g₁ = aggregate (features ⊙ io);
    * region 0 leaves s₁ = stage g₁ ii io W₁ b₁ (the dense layer, already scaled by io for the next gather);
    * the second host stretch computes g₂ = aggregate s₁ and an all-ones column;
    * region 1 leaves s₂ = stage g₂ ii 1 W₂ b₂;
    * the third host stretch reshapes two bias vectors; region 2 leaves the head of s₂.
  Each region's array after the region is its whole-array function of the arrays it was entered with; each host stretch
  is read operation by operation; the arguments are never written.
-/
import proofs.«107048_j51771535786035_1_alg».proof.Proof.KernelIdealFrameP
import proofs.«107048_j51771535786035_1_alg».proof.Proof.StageBlock
import proofs.«107048_j51771535786035_1_alg».proof.Proof.MlpBlock
import proofs.«107048_j51771535786035_1_alg».proof.Proof.RefForms
import proofs.«107048_j51771535786035_1_alg».proof.Proof.Spec
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

section Terms
variable {F : FTy → Type} [FloatOps F]

/-- 1/sqrt(max(degree, 1)) of every node: the degree counted by adding a one per edge end. -/
def invSqrtDeg (idx : (⟨S800000, .i32⟩ : BufTy).Contents (Elt F)) : FVec F S50000 .f32 :=
  Host.rsqrt (maximumf (Host.scatterAdd scatter_S50000_S800000x1_S800000_n_0_0_1 (broadcastInDim S50000 ![] bcast_S_S50000 (constant (F := F) S_ .f32 0x00000000#32)) (broadcastInDim S800000x1 ![0] bcast_S800000_S800000x1_0 idx) (broadcastInDim S800000 ![] bcast_S_S800000 (constant (F := F) S_ .f32 0x3F800000#32))) (broadcastInDim S50000 ![] bcast_S_S50000 (constant (F := F) S_ .f32 0x3F800000#32)))

/-- Negative indices wrapped by the number of nodes. -/
def wrapIdx (idx : (⟨S800000, .i32⟩ : BufTy).Contents (Elt F)) : (⟨S800000, .i32⟩ : BufTy).Contents (Elt F) :=
  select (cmpi .slt idx (broadcastInDim S800000 ![] bcast_S_S800000 (constantI S_ 32 0#32))) (addi idx (broadcastInDim S800000 ![] bcast_S_S800000 (constantI S_ 32 50000#32))) idx

/-- The neighbour sum: rows gathered at the edges' sources, added into the edges' destinations. -/
def aggregate (x : FVec F S50000x128 .f32) (src dst : (⟨S800000, .i32⟩ : BufTy).Contents (Elt F)) : FVec F S50000x128 .f32 :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 dst) (Host.gather gather_S50000x128_S800000x1_S800000x128_1_0_n_n_0_1_1128 x (broadcastInDim S800000x1 ![0] bcast_S800000_S800000x1_0 (wrapIdx src)))

/-- A node vector as a column. -/
def col (v : FVec F S50000 .f32) : FVec F S50000x1 .f32 := shapeCast S50000x1 v shapeCasts_S50000_S50000x1

/-- The all-ones node vector. -/
def onesVec : FVec F S50000 .f32 := broadcastInDim S50000 ![] bcast_S_S50000 (constant (F := F) S_ .f32 0x3F800000#32)

/-- The first neighbour sum, of the source-scaled features. -/
def agg1 (features : FVec F S50000x128 .f32) (src dst : (⟨S800000, .i32⟩ : BufTy).Contents (Elt F)) : FVec F S50000x128 .f32 :=
  aggregate (mulf features (Cert.RefForms.colSpread bcast_S50000_S50000x1_0 bcast_S50000x1_S50000x128_0_1 (invSqrtDeg src))) src dst

end Terms

/-- The kernel program's result as one function of the eleven arguments. -/
def kerOut (features : FVec Ideal S50000x128 .f32) (src dst : (⟨S800000, .i32⟩ : BufTy).Contents (Elt Ideal)) (W1 : FVec Ideal S128x128 .f32) (b1 : FVec Ideal S128 .f32)
    (W2 : FVec Ideal S128x128 .f32) (b2 : FVec Ideal S128 .f32) (Wd1 : FVec Ideal S128x256 .f32) (bd1 : FVec Ideal S256 .f32) (Wd2 : FVec Ideal S256x40 .f32)
    (bd2 : FVec Ideal S40 .f32) : FVec Ideal S50000x40 .f32 :=
  Cert.Spec.mlpArr
    (Cert.Spec.stageArr
      (aggregate (Cert.Spec.stageArr (agg1 features src dst) (col (invSqrtDeg dst)) (col (invSqrtDeg src)) W1 (shapeCast S1x128 b1 shapeCasts_S128_S1x128)) src dst)
      (col (invSqrtDeg dst)) (col onesVec) W2 (shapeCast S1x128 b2 shapeCasts_S128_S1x128))
    Wd1 (shapeCast S1x256 bd1 shapeCasts_S256_S1x256) Wd2 (shapeCast S1x40 bd2 shapeCasts_S40_S1x40)

/-! ## The host stretches, read at the buffers the regions take -/

section Stretches
variable {F : FTy → Type} [FloatOps F] (W : Valuation τ sig (Elt F))

theorem ops0_v25 : after hostOps0 W (main_v25 : DevRef τ sig)
    = agg1 (W (main_arg0 : DevRef τ sig)) (W (main_arg1 : DevRef τ sig)) (W (main_arg2 : DevRef τ sig)) := by
  after_results_simp <;> rfl
theorem ops0_v26 : after hostOps0 W (main_v26 : DevRef τ sig) = col (invSqrtDeg (W (main_arg2 : DevRef τ sig))) := by
  after_results_simp <;> rfl
theorem ops0_v27 : after hostOps0 W (main_v27 : DevRef τ sig) = col (invSqrtDeg (W (main_arg1 : DevRef τ sig))) := by
  after_results_simp <;> rfl
theorem ops0_v28 : after hostOps0 W (main_v28 : DevRef τ sig) = shapeCast S1x128 (W (main_arg4 : DevRef τ sig)) shapeCasts_S128_S1x128 := by
  after_results_simp <;> rfl
theorem ops0_v12 : after hostOps0 W (main_v12 : DevRef τ sig) = invSqrtDeg (W (main_arg2 : DevRef τ sig)) := by
  after_results_simp <;> rfl

theorem ops0_arg1 : after hostOps0 W (main_arg1 : DevRef τ sig) = W (main_arg1 : DevRef τ sig) := by after_results_simp <;> rfl
theorem ops0_arg2 : after hostOps0 W (main_arg2 : DevRef τ sig) = W (main_arg2 : DevRef τ sig) := by after_results_simp <;> rfl
theorem ops0_arg3 : after hostOps0 W (main_arg3 : DevRef τ sig) = W (main_arg3 : DevRef τ sig) := by after_results_simp <;> rfl
theorem ops0_arg5 : after hostOps0 W (main_arg5 : DevRef τ sig) = W (main_arg5 : DevRef τ sig) := by after_results_simp <;> rfl
theorem ops0_arg6 : after hostOps0 W (main_arg6 : DevRef τ sig) = W (main_arg6 : DevRef τ sig) := by after_results_simp <;> rfl
theorem ops0_arg7 : after hostOps0 W (main_arg7 : DevRef τ sig) = W (main_arg7 : DevRef τ sig) := by after_results_simp <;> rfl
theorem ops0_arg8 : after hostOps0 W (main_arg8 : DevRef τ sig) = W (main_arg8 : DevRef τ sig) := by after_results_simp <;> rfl
theorem ops0_arg9 : after hostOps0 W (main_arg9 : DevRef τ sig) = W (main_arg9 : DevRef τ sig) := by after_results_simp <;> rfl
theorem ops0_arg10 : after hostOps0 W (main_arg10 : DevRef τ sig) = W (main_arg10 : DevRef τ sig) := by after_results_simp <;> rfl

theorem ops1_v39 : after hostOps1 W (main_v39 : DevRef τ sig)
    = aggregate (W (main_v29 : DevRef τ sig)) (W (main_arg1 : DevRef τ sig)) (W (main_arg2 : DevRef τ sig)) := by
  after_results_simp <;> rfl
theorem ops1_v41 : after hostOps1 W (main_v41 : DevRef τ sig) = col (W (main_v12 : DevRef τ sig)) := by after_results_simp <;> rfl
theorem ops1_v42 : after hostOps1 W (main_v42 : DevRef τ sig) = col (onesVec (F := F)) := by after_results_simp <;> rfl
theorem ops1_v43 : after hostOps1 W (main_v43 : DevRef τ sig) = shapeCast S1x128 (W (main_arg6 : DevRef τ sig)) shapeCasts_S128_S1x128 := by
  after_results_simp <;> rfl
theorem ops1_arg5 : after hostOps1 W (main_arg5 : DevRef τ sig) = W (main_arg5 : DevRef τ sig) := by after_results_simp <;> rfl
theorem ops1_arg7 : after hostOps1 W (main_arg7 : DevRef τ sig) = W (main_arg7 : DevRef τ sig) := by after_results_simp <;> rfl
theorem ops1_arg8 : after hostOps1 W (main_arg8 : DevRef τ sig) = W (main_arg8 : DevRef τ sig) := by after_results_simp <;> rfl
theorem ops1_arg9 : after hostOps1 W (main_arg9 : DevRef τ sig) = W (main_arg9 : DevRef τ sig) := by after_results_simp <;> rfl
theorem ops1_arg10 : after hostOps1 W (main_arg10 : DevRef τ sig) = W (main_arg10 : DevRef τ sig) := by after_results_simp <;> rfl

theorem ops2_v44 : after hostOps2 W (main_v44 : DevRef τ sig) = W (main_v44 : DevRef τ sig) := by after_results_simp <;> rfl
theorem ops2_v45 : after hostOps2 W (main_v45 : DevRef τ sig) = shapeCast S1x256 (W (main_arg8 : DevRef τ sig)) shapeCasts_S256_S1x256 := by
  after_results_simp <;> rfl
theorem ops2_v46 : after hostOps2 W (main_v46 : DevRef τ sig) = shapeCast S1x40 (W (main_arg10 : DevRef τ sig)) shapeCasts_S40_S1x40 := by
  after_results_simp <;> rfl
theorem ops2_arg7 : after hostOps2 W (main_arg7 : DevRef τ sig) = W (main_arg7 : DevRef τ sig) := by after_results_simp <;> rfl
theorem ops2_arg9 : after hostOps2 W (main_arg9 : DevRef τ sig) = W (main_arg9 : DevRef τ sig) := by after_results_simp <;> rfl

end Stretches

/-! ## The contents at the segment boundaries, from the launch memory -/

section Boundaries
variable (m : (ℓ : Loc nD τ sig) → Buf (Elt Ideal) ℓ) (ρ : Dev nD → PrngReg) (c : Dev nD)

/-- What region 0 leaves in its output array: the first dense layer of the first neighbour sum. -/
theorem W2_v29 : W2 m ρ c (main_v29 : DevRef τ sig)
    = Cert.Spec.stageArr (agg1 (m ((c : Thread nD τ).loc main_arg0)) (m ((c : Thread nD τ).loc main_arg1)) (m ((c : Thread nD τ).loc main_arg2))) (col (invSqrtDeg (m ((c : Thread nD τ).loc main_arg2)))) (col (invSqrtDeg (m ((c : Thread nD τ).loc main_arg1)))) (m ((c : Thread nD τ).loc main_arg3))
        (shapeCast S1x128 (m ((c : Thread nD τ).loc main_arg4)) shapeCasts_S128_S1x128) := by
  refine (W2_arr m ρ c 5).trans ?_
  rw [Cert.KernelIdeal.StageValue.final0 (V1 m ρ) c]
  show Cert.Spec.stageArr (after hostOps0 (W0 m ρ c) (main_v25 : DevRef τ sig)) (after hostOps0 (W0 m ρ c) (main_v26 : DevRef τ sig))
    (after hostOps0 (W0 m ρ c) (main_v27 : DevRef τ sig)) (after hostOps0 (W0 m ρ c) (main_arg3 : DevRef τ sig))
    (after hostOps0 (W0 m ρ c) (main_v28 : DevRef τ sig)) = _
  rw [ops0_v25, ops0_v26, ops0_v27, ops0_arg3, ops0_v28]

/-- A buffer no region writes and no host stretch writes keeps its launch contents up to region 1's entry. -/
theorem W2_keep (b : Ref sig .tc) (h0 : ∀ w, Pipeline.arrRef spec0 w ≠ b)
    (hk : ∀ W : Valuation τ sig (Elt Ideal), after hostOps0 W (b : DevRef τ sig) = W (b : DevRef τ sig)) :
    W2 m ρ c (b : DevRef τ sig) = m ((c : Thread nD τ).loc b) :=
  (W2_of_ne m ρ c b h0).trans (hk _)

theorem W2_v12 : W2 m ρ c (main_v12 : DevRef τ sig) = invSqrtDeg (m ((c : Thread nD τ).loc main_arg2)) :=
  (W2_of_ne m ρ c main_v12 (by decide)).trans (ops0_v12 _)

/-- What region 1 leaves in its output array: the second dense layer of the second neighbour sum, unscaled. -/
theorem W4_v44 : W4 m ρ c (main_v44 : DevRef τ sig)
    = Cert.Spec.stageArr (aggregate (Cert.Spec.stageArr (agg1 (m ((c : Thread nD τ).loc main_arg0)) (m ((c : Thread nD τ).loc main_arg1)) (m ((c : Thread nD τ).loc main_arg2))) (col (invSqrtDeg (m ((c : Thread nD τ).loc main_arg2)))) (col (invSqrtDeg (m ((c : Thread nD τ).loc main_arg1)))) (m ((c : Thread nD τ).loc main_arg3))
        (shapeCast S1x128 (m ((c : Thread nD τ).loc main_arg4)) shapeCasts_S128_S1x128)) (m ((c : Thread nD τ).loc main_arg1)) (m ((c : Thread nD τ).loc main_arg2)))
        (col (invSqrtDeg (m ((c : Thread nD τ).loc main_arg2)))) (col onesVec) (m ((c : Thread nD τ).loc main_arg5)) (shapeCast S1x128 (m ((c : Thread nD τ).loc main_arg6)) shapeCasts_S128_S1x128) := by
  refine (W4_arr m ρ c 5).trans ?_
  rw [Cert.KernelIdeal.StageValue.final1 (V3 m ρ) c]
  show Cert.Spec.stageArr (after hostOps1 (W2 m ρ c) (main_v39 : DevRef τ sig)) (after hostOps1 (W2 m ρ c) (main_v41 : DevRef τ sig))
    (after hostOps1 (W2 m ρ c) (main_v42 : DevRef τ sig)) (after hostOps1 (W2 m ρ c) (main_arg5 : DevRef τ sig))
    (after hostOps1 (W2 m ρ c) (main_v43 : DevRef τ sig)) = _
  rw [ops1_v39, ops1_v41, ops1_v42, ops1_arg5, ops1_v43, W2_v29, W2_v12,
    W2_keep m ρ c main_arg1 (by decide) ops0_arg1, W2_keep m ρ c main_arg2 (by decide) ops0_arg2,
    W2_keep m ρ c main_arg5 (by decide) ops0_arg5, W2_keep m ρ c main_arg6 (by decide) ops0_arg6]

/-- A buffer nothing writes keeps its launch contents up to region 2's entry. -/
theorem W4_keep (b : Ref sig .tc) (h0 : ∀ w, Pipeline.arrRef spec0 w ≠ b) (h1 : ∀ w, Pipeline.arrRef spec1 w ≠ b)
    (hk0 : ∀ W : Valuation τ sig (Elt Ideal), after hostOps0 W (b : DevRef τ sig) = W (b : DevRef τ sig))
    (hk1 : ∀ W : Valuation τ sig (Elt Ideal), after hostOps1 W (b : DevRef τ sig) = W (b : DevRef τ sig)) :
    W4 m ρ c (b : DevRef τ sig) = m ((c : Thread nD τ).loc b) :=
  (W4_of_ne m ρ c b h1).trans ((hk1 _).trans (W2_keep m ρ c b h0 hk0))

/-- The result array after the run: the head of region 1's output. -/
theorem result_eq : W6 m ρ c (Proc.devRef .tc main_v47)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  rw [Cert.KernelIdeal.MlpValue.final2 (V5 m ρ) c]
  show Cert.Spec.mlpArr (after hostOps2 (W4 m ρ c) (main_v44 : DevRef τ sig)) (after hostOps2 (W4 m ρ c) (main_arg7 : DevRef τ sig))
    (after hostOps2 (W4 m ρ c) (main_v45 : DevRef τ sig)) (after hostOps2 (W4 m ρ c) (main_arg9 : DevRef τ sig))
    (after hostOps2 (W4 m ρ c) (main_v46 : DevRef τ sig)) = _
  rw [ops2_v44, ops2_arg7, ops2_v45, ops2_arg9, ops2_v46, W4_v44,
    W4_keep m ρ c main_arg7 (by decide) (by decide) ops0_arg7 ops1_arg7, W4_keep m ρ c main_arg8 (by decide) (by decide) ops0_arg8 ops1_arg8,
    W4_keep m ρ c main_arg9 (by decide) (by decide) ops0_arg9 ops1_arg9, W4_keep m ρ c main_arg10 (by decide) (by decide) ops0_arg10 ops1_arg10]
  rfl

end Boundaries

end Cert.KernelIdeal.KValue

end
-- ==== Proof.RefRun.lean ====
/-
  The reference program's run, as one expression of its eleven arguments.

  The reference is a two-layer graph convolution followed by a two-layer dense head.  Each convolution scales the
  node features by 1/sqrt(max(out-degree, 1)), gathers them along the edges' sources, adds them into the edges'
  destinations, scales by 1/sqrt(max(in-degree, 1)), multiplies by the layer's weights, adds the bias and clips at
  zero.  The head is two dense layers, each followed by the leaky rectifier.  The printed program computes the two
  degree factors once per convolution; both times they are the same expression of the edge lists, so the
  expression below names each once.

  The printed program is a straight line of host operations (the outlined functions' bodies standing at their
  calls).  It is listed here in two pieces, as it is printed; each piece's effect on the buffers a later piece or
  the result reads is computed, and the two are composed.
-/
import proofs.«107048_j51771535786035_1_alg».proof.Proof.Gen.ReferenceIdeal
import Idealize.ShloMosaic.Lib.StableHlo.Run
import Idealize.ShloMosaic.Lib.Pipeline.Frame
import proofs.«107048_j51771535786035_1_alg».proof.Proof.RefForms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The expression -/

/-- 1/sqrt(max(degree, 1)) of every node: the degree counted by adding a one per edge end (idx = the edges' sources or destinations). -/
def invSqrtDeg (idx : (⟨S800000, .i32⟩ : BufTy).Contents (Elt F)) : FVec F S50000 .f32 :=
  Host.rsqrt (maximumf (Host.scatterAdd scatter_S50000_S800000x1_S800000_n_0_0_1 (broadcastInDim S50000 ![] bcast_S_S50000 (constant (F := F) S_ .f32 0x00000000#32)) (broadcastInDim S800000x1 ![0] bcast_S800000_S800000x1_0 idx) (broadcastInDim S800000 ![] bcast_S_S800000 (constant (F := F) S_ .f32 0x3F800000#32))) (broadcastInDim S50000 ![] bcast_S_S50000 (constant (F := F) S_ .f32 0x3F800000#32)))

/-- negative indices wrapped by the number of nodes (an index below zero counts back from the last node) -/
def wrapIdx (idx : (⟨S800000, .i32⟩ : BufTy).Contents (Elt F)) : (⟨S800000, .i32⟩ : BufTy).Contents (Elt F) :=
  select (cmpi .slt idx (broadcastInDim S800000 ![] bcast_S_S800000 (constantI S_ 32 0#32))) (addi idx (broadcastInDim S800000 ![] bcast_S_S800000 (constantI S_ 32 50000#32))) idx

/-- the neighbour sum: rows gathered at the edges' sources, added into the edges' destinations -/
def aggregate (x : FVec F S50000x128 .f32) (src dst : (⟨S800000, .i32⟩ : BufTy).Contents (Elt F)) : FVec F S50000x128 .f32 :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 dst) (Host.gather gather_S50000x128_S800000x1_S800000x128_1_0_n_n_0_1_1128 x (broadcastInDim S800000x1 ![0] bcast_S800000_S800000x1_0 (wrapIdx src)))

/-- one graph convolution: aggregate the source-scaled features, then the dense layer scaled by the destination factor -/
def conv (x : FVec F S50000x128 .f32) (src dst : (⟨S800000, .i32⟩ : BufTy).Contents (Elt F)) (W : FVec F S128x128 .f32) (b : FVec F S128 .f32) : FVec F S50000x128 .f32 :=
  Cert.RefForms.layerRef dot_S50000x128_S128x128_S50000x128_1_0_0_1_n_n bcast_S50000_S50000x1_0 bcast_S50000x1_S50000x128_0_1 bcast_S128_S1x128_1 bcast_S1x128_S50000x128_0_1 bcast_S_S50000x128
    (aggregate (mulf x (Cert.RefForms.colSpread bcast_S50000_S50000x1_0 bcast_S50000x1_S50000x128_0_1 (invSqrtDeg src))) src dst) (invSqrtDeg dst) W b

/-- the reference's result as one function of the eleven arguments -/
def refOut (features : FVec F S50000x128 .f32) (src dst : (⟨S800000, .i32⟩ : BufTy).Contents (Elt F)) (W1 : FVec F S128x128 .f32) (b1 : FVec F S128 .f32) (W2 : FVec F S128x128 .f32) (b2 : FVec F S128 .f32) (Wd1 : FVec F S128x256 .f32) (bd1 : FVec F S256 .f32) (Wd2 : FVec F S256x40 .f32) (bd2 : FVec F S40 .f32) : FVec F S50000x40 .f32 :=
  Cert.RefForms.headRef dot_S50000x128_S128x256_S50000x256_1_0_0_1_n_n dot_S50000x256_S256x40_S50000x40_1_0_0_1_n_n bcast_S256_S1x256_1 bcast_S1x256_S50000x256_0_1 bcast_S_S50000x256 bcast_S40_S1x40_1 bcast_S1x40_S50000x40_0_1 bcast_S_S50000x40
    (conv (conv features src dst W1 b1) src dst W2 b2) Wd1 bd1 Wd2 bd2

/-! ## The straight line -/

/-- the contents of a buffer of the given shape and element type -/
local notation "𝕋[" s ", " e "]" => BufTy.Contents (Elt F) (BufTy.mk s e)

set_option maxHeartbeats 4000000 in
/-- The first piece: both degree factors, the first convolution (its rectifier's three operations standing at the
    call), and both degree factors again. -/
abbrev ops0 : List (HloOp τ sig (Elt F)) :=
  [ -- out-degree factor: a one per edge added at its source, clipped below at one, inverse square root
    StableHlo.nullary main_cst (constant S_ .f32 0x3F800000#32),
    StableHlo.unary main_cst main_v0 (broadcastInDim S800000 ![] bcast_S_S800000 : 𝕋[S_, .f32] → 𝕋[S800000, .f32]),
    StableHlo.nullary main_cst_0 (constant S_ .f32 0x00000000#32),
    StableHlo.unary main_cst_0 main_v1 (broadcastInDim S50000 ![] bcast_S_S50000 : 𝕋[S_, .f32] → 𝕋[S50000, .f32]),
    StableHlo.unary main_arg1 main_v2 (broadcastInDim S800000x1 ![0] bcast_S800000_S800000x1_0 : 𝕋[S800000, .i32] → 𝕋[S800000x1, .i32]),
    StableHlo.ternary main_v1 main_v2 main_v0 main_v3 ((fun x i u => Host.scatterAdd scatter_S50000_S800000x1_S800000_n_0_0_1 x i u) : 𝕋[S50000, .f32] → 𝕋[S800000x1, .i32] → 𝕋[S800000, .f32] → 𝕋[S50000, .f32]),
    -- in-degree: the same at the destinations
    StableHlo.nullary main_cst_1 (constant S_ .f32 0x00000000#32),
    StableHlo.unary main_cst_1 main_v4 (broadcastInDim S50000 ![] bcast_S_S50000 : 𝕋[S_, .f32] → 𝕋[S50000, .f32]),
    StableHlo.unary main_arg2 main_v5 (broadcastInDim S800000x1 ![0] bcast_S800000_S800000x1_0 : 𝕋[S800000, .i32] → 𝕋[S800000x1, .i32]),
    StableHlo.ternary main_v4 main_v5 main_v0 main_v6 ((fun x i u => Host.scatterAdd scatter_S50000_S800000x1_S800000_n_0_0_1 x i u) : 𝕋[S50000, .f32] → 𝕋[S800000x1, .i32] → 𝕋[S800000, .f32] → 𝕋[S50000, .f32]),
    StableHlo.nullary main_cst_2 (constant S_ .f32 0x3F800000#32),
    StableHlo.unary main_cst_2 main_v7 (broadcastInDim S50000 ![] bcast_S_S50000 : 𝕋[S_, .f32] → 𝕋[S50000, .f32]),
    StableHlo.binary main_v3 main_v7 main_v8 (maximumf : 𝕋[S50000, .f32] → 𝕋[S50000, .f32] → 𝕋[S50000, .f32]),
    StableHlo.unary main_v8 main_v9 (Host.rsqrt : 𝕋[S50000, .f32] → 𝕋[S50000, .f32]),
    StableHlo.nullary main_cst_3 (constant S_ .f32 0x3F800000#32),
    StableHlo.unary main_cst_3 main_v10 (broadcastInDim S50000 ![] bcast_S_S50000 : 𝕋[S_, .f32] → 𝕋[S50000, .f32]),
    StableHlo.binary main_v6 main_v10 main_v11 (maximumf : 𝕋[S50000, .f32] → 𝕋[S50000, .f32] → 𝕋[S50000, .f32]),
    StableHlo.unary main_v11 main_v12 (Host.rsqrt : 𝕋[S50000, .f32] → 𝕋[S50000, .f32]),
    -- the features scaled row by row by the out-degree factor
    StableHlo.unary main_v9 main_v13 (broadcastInDim S50000x1 ![0] bcast_S50000_S50000x1_0 : 𝕋[S50000, .f32] → 𝕋[S50000x1, .f32]),
    StableHlo.unary main_v13 main_v14 (broadcastInDim S50000x128 ![0, 1] bcast_S50000x1_S50000x128_0_1 : 𝕋[S50000x1, .f32] → 𝕋[S50000x128, .f32]),
    StableHlo.binary main_arg0 main_v14 main_v15 (mulf : 𝕋[S50000x128, .f32] → 𝕋[S50000x128, .f32] → 𝕋[S50000x128, .f32]),
    -- the sources, a negative one wrapped by the number of nodes; the rows gathered there
    StableHlo.nullary main_c (constantI S_ 32 0#32),
    StableHlo.unary main_c main_v16 (broadcastInDim S800000 ![] bcast_S_S800000 : 𝕋[S_, .i32] → 𝕋[S800000, .i32]),
    StableHlo.binary main_arg1 main_v16 main_v17 (cmpi .slt : 𝕋[S800000, .i32] → 𝕋[S800000, .i32] → 𝕋[S800000, .i1]),
    StableHlo.nullary main_c_4 (constantI S_ 32 50000#32),
    StableHlo.unary main_c_4 main_v18 (broadcastInDim S800000 ![] bcast_S_S800000 : 𝕋[S_, .i32] → 𝕋[S800000, .i32]),
    StableHlo.binary main_arg1 main_v18 main_v19 (addi : 𝕋[S800000, .i32] → 𝕋[S800000, .i32] → 𝕋[S800000, .i32]),
    StableHlo.ternary main_v17 main_v19 main_arg1 main_v20 (select : 𝕋[S800000, .i1] → 𝕋[S800000, .i32] → 𝕋[S800000, .i32] → 𝕋[S800000, .i32]),
    StableHlo.unary main_v20 main_v21 (broadcastInDim S800000x1 ![0] bcast_S800000_S800000x1_0 : 𝕋[S800000, .i32] → 𝕋[S800000x1, .i32]),
    StableHlo.binary main_v15 main_v21 main_v22 ((fun x i => Host.gather gather_S50000x128_S800000x1_S800000x128_1_0_n_n_0_1_1128 x i) : 𝕋[S50000x128, .f32] → 𝕋[S800000x1, .i32] → 𝕋[S800000x128, .f32]),
    -- the gathered rows added into the destinations' rows of a zero array
    StableHlo.nullary main_cst_5 (constant S_ .f32 0x00000000#32),
    StableHlo.unary main_cst_5 main_v23 (broadcastInDim S50000x128 ![] bcast_S_S50000x128 : 𝕋[S_, .f32] → 𝕋[S50000x128, .f32]),
    StableHlo.unary main_arg2 main_v24 (broadcastInDim S800000x1 ![0] bcast_S800000_S800000x1_0 : 𝕋[S800000, .i32] → 𝕋[S800000x1, .i32]),
    StableHlo.ternary main_v23 main_v24 main_v22 main_v25 ((fun x i u => Host.scatterAdd scatter_S50000x128_S800000x1_S800000x128_1_0_0_1 x i u) : 𝕋[S50000x128, .f32] → 𝕋[S800000x1, .i32] → 𝕋[S800000x128, .f32] → 𝕋[S50000x128, .f32]),
    -- scaled by the in-degree factor, times the weights, plus the bias
    StableHlo.unary main_v12 main_v26 (broadcastInDim S50000x1 ![0] bcast_S50000_S50000x1_0 : 𝕋[S50000, .f32] → 𝕋[S50000x1, .f32]),
    StableHlo.unary main_v26 main_v27 (broadcastInDim S50000x128 ![0, 1] bcast_S50000x1_S50000x128_0_1 : 𝕋[S50000x1, .f32] → 𝕋[S50000x128, .f32]),
    StableHlo.binary main_v25 main_v27 main_v28 (mulf : 𝕋[S50000x128, .f32] → 𝕋[S50000x128, .f32] → 𝕋[S50000x128, .f32]),
    StableHlo.binary main_v28 main_arg3 main_v29 ((fun l r => Host.dotGeneral dot_S50000x128_S128x128_S50000x128_1_0_0_1_n_n none l r) : 𝕋[S50000x128, .f32] → 𝕋[S128x128, .f32] → 𝕋[S50000x128, .f32]),
    StableHlo.unary main_arg4 main_v30 (broadcastInDim S1x128 ![1] bcast_S128_S1x128_1 : 𝕋[S128, .f32] → 𝕋[S1x128, .f32]),
    StableHlo.unary main_v30 main_v31 (broadcastInDim S50000x128 ![0, 1] bcast_S1x128_S50000x128_0_1 : 𝕋[S1x128, .f32] → 𝕋[S50000x128, .f32]),
    StableHlo.binary main_v29 main_v31 main_v32 (addf : 𝕋[S50000x128, .f32] → 𝕋[S50000x128, .f32] → 𝕋[S50000x128, .f32]),
    -- the rectifier: the maximum with a zero array
    TRef.nullary main_call0.cst (constant S_ .f32 0x00000000#32),
    TRef.unary main_call0.cst main_call0.v0 (broadcastInDim S50000x128 ![] bcast_S_S50000x128),
    TRef.binary (.of main_v32 : TRef sig ⟨S50000x128, .f32⟩) main_call0.v0 main_call0.v1 maximumf,
    -- both degree factors once more
    StableHlo.nullary main_cst_6 (constant S_ .f32 0x3F800000#32),
    StableHlo.unary main_cst_6 main_v34 (broadcastInDim S800000 ![] bcast_S_S800000 : 𝕋[S_, .f32] → 𝕋[S800000, .f32]),
    StableHlo.nullary main_cst_7 (constant S_ .f32 0x00000000#32),
    StableHlo.unary main_cst_7 main_v35 (broadcastInDim S50000 ![] bcast_S_S50000 : 𝕋[S_, .f32] → 𝕋[S50000, .f32]),
    StableHlo.unary main_arg1 main_v36 (broadcastInDim S800000x1 ![0] bcast_S800000_S800000x1_0 : 𝕋[S800000, .i32] → 𝕋[S800000x1, .i32]),
    StableHlo.ternary main_v35 main_v36 main_v34 main_v37 ((fun x i u => Host.scatterAdd scatter_S50000_S800000x1_S800000_n_0_0_1 x i u) : 𝕋[S50000, .f32] → 𝕋[S800000x1, .i32] → 𝕋[S800000, .f32] → 𝕋[S50000, .f32]),
    StableHlo.nullary main_cst_8 (constant S_ .f32 0x00000000#32),
    StableHlo.unary main_cst_8 main_v38 (broadcastInDim S50000 ![] bcast_S_S50000 : 𝕋[S_, .f32] → 𝕋[S50000, .f32]),
    StableHlo.unary main_arg2 main_v39 (broadcastInDim S800000x1 ![0] bcast_S800000_S800000x1_0 : 𝕋[S800000, .i32] → 𝕋[S800000x1, .i32]),
    StableHlo.ternary main_v38 main_v39 main_v34 main_v40 ((fun x i u => Host.scatterAdd scatter_S50000_S800000x1_S800000_n_0_0_1 x i u) : 𝕋[S50000, .f32] → 𝕋[S800000x1, .i32] → 𝕋[S800000, .f32] → 𝕋[S50000, .f32]),
    StableHlo.nullary main_cst_9 (constant S_ .f32 0x3F800000#32),
    StableHlo.unary main_cst_9 main_v41 (broadcastInDim S50000 ![] bcast_S_S50000 : 𝕋[S_, .f32] → 𝕋[S50000, .f32]),
    StableHlo.binary main_v37 main_v41 main_v42 (maximumf : 𝕋[S50000, .f32] → 𝕋[S50000, .f32] → 𝕋[S50000, .f32]),
    StableHlo.unary main_v42 main_v43 (Host.rsqrt : 𝕋[S50000, .f32] → 𝕋[S50000, .f32]),
    StableHlo.nullary main_cst_10 (constant S_ .f32 0x3F800000#32),
    StableHlo.unary main_cst_10 main_v44 (broadcastInDim S50000 ![] bcast_S_S50000 : 𝕋[S_, .f32] → 𝕋[S50000, .f32]),
    StableHlo.binary main_v40 main_v44 main_v45 (maximumf : 𝕋[S50000, .f32] → 𝕋[S50000, .f32] → 𝕋[S50000, .f32]),
    StableHlo.unary main_v45 main_v46 (Host.rsqrt : 𝕋[S50000, .f32] → 𝕋[S50000, .f32]) ]

set_option maxHeartbeats 4000000 in
/-- The second piece: the second convolution over the first one's result, and the two-layer head (each leaky rectifier's
    seven operations standing at its call: the comparison with zero, the slope spread over the array, the product,
    the choice). -/
abbrev ops1 : List (HloOp τ sig (Elt F)) :=
  [ -- the first layer's result scaled by the out-degree factor, gathered at the wrapped sources
    StableHlo.unary main_v43 main_v47 (broadcastInDim S50000x1 ![0] bcast_S50000_S50000x1_0 : 𝕋[S50000, .f32] → 𝕋[S50000x1, .f32]),
    StableHlo.unary main_v47 main_v48 (broadcastInDim S50000x128 ![0, 1] bcast_S50000x1_S50000x128_0_1 : 𝕋[S50000x1, .f32] → 𝕋[S50000x128, .f32]),
    StableHlo.binary main_v33 main_v48 main_v49 (mulf : 𝕋[S50000x128, .f32] → 𝕋[S50000x128, .f32] → 𝕋[S50000x128, .f32]),
    StableHlo.nullary main_c_11 (constantI S_ 32 0#32),
    StableHlo.unary main_c_11 main_v50 (broadcastInDim S800000 ![] bcast_S_S800000 : 𝕋[S_, .i32] → 𝕋[S800000, .i32]),
    StableHlo.binary main_arg1 main_v50 main_v51 (cmpi .slt : 𝕋[S800000, .i32] → 𝕋[S800000, .i32] → 𝕋[S800000, .i1]),
    StableHlo.nullary main_c_12 (constantI S_ 32 50000#32),
    StableHlo.unary main_c_12 main_v52 (broadcastInDim S800000 ![] bcast_S_S800000 : 𝕋[S_, .i32] → 𝕋[S800000, .i32]),
    StableHlo.binary main_arg1 main_v52 main_v53 (addi : 𝕋[S800000, .i32] → 𝕋[S800000, .i32] → 𝕋[S800000, .i32]),
    StableHlo.ternary main_v51 main_v53 main_arg1 main_v54 (select : 𝕋[S800000, .i1] → 𝕋[S800000, .i32] → 𝕋[S800000, .i32] → 𝕋[S800000, .i32]),
    StableHlo.unary main_v54 main_v55 (broadcastInDim S800000x1 ![0] bcast_S800000_S800000x1_0 : 𝕋[S800000, .i32] → 𝕋[S800000x1, .i32]),
    StableHlo.binary main_v49 main_v55 main_v56 ((fun x i => Host.gather gather_S50000x128_S800000x1_S800000x128_1_0_n_n_0_1_1128 x i) : 𝕋[S50000x128, .f32] → 𝕋[S800000x1, .i32] → 𝕋[S800000x128, .f32]),
    -- added into the destinations' rows
    StableHlo.nullary main_cst_13 (constant S_ .f32 0x00000000#32),
    StableHlo.unary main_cst_13 main_v57 (broadcastInDim S50000x128 ![] bcast_S_S50000x128 : 𝕋[S_, .f32] → 𝕋[S50000x128, .f32]),
    StableHlo.unary main_arg2 main_v58 (broadcastInDim S800000x1 ![0] bcast_S800000_S800000x1_0 : 𝕋[S800000, .i32] → 𝕋[S800000x1, .i32]),
    StableHlo.ternary main_v57 main_v58 main_v56 main_v59 ((fun x i u => Host.scatterAdd scatter_S50000x128_S800000x1_S800000x128_1_0_0_1 x i u) : 𝕋[S50000x128, .f32] → 𝕋[S800000x1, .i32] → 𝕋[S800000x128, .f32] → 𝕋[S50000x128, .f32]),
    -- scaled by the in-degree factor, times the weights, plus the bias, clipped at zero
    StableHlo.unary main_v46 main_v60 (broadcastInDim S50000x1 ![0] bcast_S50000_S50000x1_0 : 𝕋[S50000, .f32] → 𝕋[S50000x1, .f32]),
    StableHlo.unary main_v60 main_v61 (broadcastInDim S50000x128 ![0, 1] bcast_S50000x1_S50000x128_0_1 : 𝕋[S50000x1, .f32] → 𝕋[S50000x128, .f32]),
    StableHlo.binary main_v59 main_v61 main_v62 (mulf : 𝕋[S50000x128, .f32] → 𝕋[S50000x128, .f32] → 𝕋[S50000x128, .f32]),
    StableHlo.binary main_v62 main_arg5 main_v63 ((fun l r => Host.dotGeneral dot_S50000x128_S128x128_S50000x128_1_0_0_1_n_n none l r) : 𝕋[S50000x128, .f32] → 𝕋[S128x128, .f32] → 𝕋[S50000x128, .f32]),
    StableHlo.unary main_arg6 main_v64 (broadcastInDim S1x128 ![1] bcast_S128_S1x128_1 : 𝕋[S128, .f32] → 𝕋[S1x128, .f32]),
    StableHlo.unary main_v64 main_v65 (broadcastInDim S50000x128 ![0, 1] bcast_S1x128_S50000x128_0_1 : 𝕋[S1x128, .f32] → 𝕋[S50000x128, .f32]),
    StableHlo.binary main_v63 main_v65 main_v66 (addf : 𝕋[S50000x128, .f32] → 𝕋[S50000x128, .f32] → 𝕋[S50000x128, .f32]),
    TRef.nullary main_call1.cst (constant S_ .f32 0x00000000#32),
    TRef.unary main_call1.cst main_call1.v0 (broadcastInDim S50000x128 ![] bcast_S_S50000x128),
    TRef.binary (.of main_v66 : TRef sig ⟨S50000x128, .f32⟩) main_call1.v0 main_call1.v1 maximumf,
    -- the head's first layer and its leaky rectifier
    StableHlo.binary main_v67 main_arg7 main_v68 ((fun l r => Host.dotGeneral dot_S50000x128_S128x256_S50000x256_1_0_0_1_n_n none l r) : 𝕋[S50000x128, .f32] → 𝕋[S128x256, .f32] → 𝕋[S50000x256, .f32]),
    StableHlo.unary main_arg8 main_v69 (broadcastInDim S1x256 ![1] bcast_S256_S1x256_1 : 𝕋[S256, .f32] → 𝕋[S1x256, .f32]),
    StableHlo.unary main_v69 main_v70 (broadcastInDim S50000x256 ![0, 1] bcast_S1x256_S50000x256_0_1 : 𝕋[S1x256, .f32] → 𝕋[S50000x256, .f32]),
    StableHlo.binary main_v68 main_v70 main_v71 (addf : 𝕋[S50000x256, .f32] → 𝕋[S50000x256, .f32] → 𝕋[S50000x256, .f32]),
    StableHlo.nullary main_cst_14 (constant S_ .f32 0x3C23D70A#32),
    TRef.nullary main_call2.cst (constant S_ .f32 0x00000000#32),
    TRef.unary main_call2.cst main_call2.v0 (broadcastInDim S50000x256 ![] bcast_S_S50000x256),
    TRef.binary (.of main_v71 : TRef sig ⟨S50000x256, .f32⟩) main_call2.v0 main_call2.v1 (cmpf .oge),
    TRef.unary (.of main_cst_14 : TRef sig ⟨S_, .f32⟩) main_call2.v2 id,
    TRef.unary main_call2.v2 main_call2.v3 (broadcastInDim S50000x256 ![] bcast_S_S50000x256),
    TRef.binary main_call2.v3 (.of main_v71 : TRef sig ⟨S50000x256, .f32⟩) main_call2.v4 mulf,
    TRef.ternary main_call2.v1 (.of main_v71 : TRef sig ⟨S50000x256, .f32⟩) main_call2.v4 main_call2.call0.v0 select,
    -- the head's second layer and its leaky rectifier
    StableHlo.binary main_v72 main_arg9 main_v73 ((fun l r => Host.dotGeneral dot_S50000x256_S256x40_S50000x40_1_0_0_1_n_n none l r) : 𝕋[S50000x256, .f32] → 𝕋[S256x40, .f32] → 𝕋[S50000x40, .f32]),
    StableHlo.unary main_arg10 main_v74 (broadcastInDim S1x40 ![1] bcast_S40_S1x40_1 : 𝕋[S40, .f32] → 𝕋[S1x40, .f32]),
    StableHlo.unary main_v74 main_v75 (broadcastInDim S50000x40 ![0, 1] bcast_S1x40_S50000x40_0_1 : 𝕋[S1x40, .f32] → 𝕋[S50000x40, .f32]),
    StableHlo.binary main_v73 main_v75 main_v76 (addf : 𝕋[S50000x40, .f32] → 𝕋[S50000x40, .f32] → 𝕋[S50000x40, .f32]),
    StableHlo.nullary main_cst_15 (constant S_ .f32 0x3C23D70A#32),
    TRef.nullary main_call3.cst (constant S_ .f32 0x00000000#32),
    TRef.unary main_call3.cst main_call3.v0 (broadcastInDim S50000x40 ![] bcast_S_S50000x40),
    TRef.binary (.of main_v76 : TRef sig ⟨S50000x40, .f32⟩) main_call3.v0 main_call3.v1 (cmpf .oge),
    TRef.unary (.of main_cst_15 : TRef sig ⟨S_, .f32⟩) main_call3.v2 id,
    TRef.unary main_call3.v2 main_call3.v3 (broadcastInDim S50000x40 ![] bcast_S_S50000x40),
    TRef.binary main_call3.v3 (.of main_v76 : TRef sig ⟨S50000x40, .f32⟩) main_call3.v4 mulf,
    TRef.ternary main_call3.v1 (.of main_v76 : TRef sig ⟨S50000x40, .f32⟩) main_call3.v4 main_call3.call0.v0 select ]

/-- The first printed piece is that line: both sides are the same chain of host steps once the rectifier's body stands
    at its call. -/
theorem main_part0_eq (c : Dev nD) : main_part0 (F := F) c = seq ops0 := by
  chain_rfl

/-- The second printed piece is that line. -/
theorem main_part1_eq (c : Dev nD) : main_part1 (F := F) c = seq ops1 := by
  chain_rfl

/-- The whole program is the two lines, one after the other. -/
theorem main_eq (c : Dev nD) : main (F := F) c = seq (ops0 ++ ops1) := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ### Every operation touches TensorCore buffers only and determines its result -/

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., unary_bufs_sub ..⟩

theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

theorem ops_sub : (ops0 ++ ops1 : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

theorem ops0_fresh : (ops0 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl⟩

theorem ops_fresh : ∀ op ∈ (ops0 ++ ops1 : List (HloOp τ sig (Elt F))), op.fresh = ∅ :=
  fun op h => (List.mem_append.1 h).elim
    (List.forall_iff_forall_mem.1 ops0_fresh op) (List.forall_iff_forall_mem.1 ops1_fresh op)

/-! ### The arguments are never written

Every operation writes one buffer, and that buffer is one of the hundred and twelve intermediate values; an
argument is none of them. -/

/-- The intermediate values' buffers, in the order they are written. -/
def temps : List (Ref sig .tc) :=
  [main_cst, main_v0, main_cst_0, main_v1, main_v2, main_v3, main_cst_1, main_v4, main_v5, main_v6,
    main_cst_2, main_v7, main_v8, main_v9, main_cst_3, main_v10, main_v11, main_v12, main_v13, main_v14,
    main_v15, main_c, main_v16, main_v17, main_c_4, main_v18, main_v19, main_v20, main_v21, main_v22,
    main_cst_5, main_v23, main_v24, main_v25, main_v26, main_v27, main_v28, main_v29, main_v30, main_v31,
    main_v32, main_call0_cst, main_call0_v0, main_v33, main_cst_6, main_v34, main_cst_7, main_v35, main_v36, main_v37,
    main_cst_8, main_v38, main_v39, main_v40, main_cst_9, main_v41, main_v42, main_v43, main_cst_10, main_v44,
    main_v45, main_v46, main_v47, main_v48, main_v49, main_c_11, main_v50, main_v51, main_c_12, main_v52,
    main_v53, main_v54, main_v55, main_v56, main_cst_13, main_v57, main_v58, main_v59, main_v60, main_v61,
    main_v62, main_v63, main_v64, main_v65, main_v66, main_call1_cst, main_call1_v0, main_v67, main_v68, main_v69,
    main_v70, main_v71, main_cst_14, main_call2_cst, main_call2_v0, main_call2_v1, main_call2_v2, main_call2_v3, main_call2_v4, main_v72,
    main_v73, main_v74, main_v75, main_v76, main_cst_15, main_call3_cst, main_call3_v0, main_call3_v1, main_call3_v2, main_call3_v3,
    main_call3_v4, main_v77]

private theorem writes_in {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

theorem writes0_sub : (ops0 : List (HloOp τ sig (Elt F))).Forall fun op =>
    op.writes ⊆ (temps.map (Proc.devRef (τ := τ) .tc)).toFinset :=
  ⟨writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide)⟩

theorem writes1_sub : (ops1 : List (HloOp τ sig (Elt F))).Forall fun op =>
    op.writes ⊆ (temps.map (Proc.devRef (τ := τ) .tc)).toFinset :=
  ⟨writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide),
    writes_in (by decide), writes_in (by decide), writes_in (by decide), writes_in (by decide), writes_in (by decide)⟩

/-- A buffer that is no intermediate value is as it was after the first piece, -/
theorem keep0 (V : Valuation τ sig (Elt F)) {r : Ref sig .tc} (hr : r ∉ temps) :
    after ops0 V (Proc.devRef .tc r) = V (Proc.devRef .tc r) :=
  after_of_writes_sub ops0 V writes0_sub hr

/-- after the second, -/
theorem keep1 (V : Valuation τ sig (Elt F)) {r : Ref sig .tc} (hr : r ∉ temps) :
    after ops1 V (Proc.devRef .tc r) = V (Proc.devRef .tc r) :=
  after_of_writes_sub ops1 V writes1_sub hr

/-- and after both. -/
theorem keep (V : Valuation τ sig (Elt F)) {r : Ref sig .tc} (hr : r ∉ temps) :
    after (ops0 ++ ops1) V (Proc.devRef .tc r) = V (Proc.devRef .tc r) := by
  rw [StableHlo.after_append, keep1 _ hr, keep0 _ hr]

/-! ### What the two pieces compute

The gather, the scatter-add and the inverse square root are kept folded (the matrix product is a field of the float
values and has nothing to unfold): the comparison below is between two ways of writing one composition of them, and
never looks inside. -/

attribute [local irreducible] Host.scatterAdd Host.gather Host.rsqrt

set_option maxRecDepth 8192 in
set_option maxHeartbeats 2000000 in
/-- After the first piece the first convolution's result is in its buffer, -/
theorem part0_conv (V : Valuation τ sig (Elt F)) :
    after ops0 V (main_v33 : DevRef τ sig)
      = conv (V (main_arg0 : DevRef τ sig)) (V (main_arg1 : DevRef τ sig)) (V (main_arg2 : DevRef τ sig)) (V (main_arg3 : DevRef τ sig)) (V (main_arg4 : DevRef τ sig)) := by
  after_results_simp
  rfl

set_option maxRecDepth 8192 in
set_option maxHeartbeats 2000000 in
/-- the out-degree factor (its second copy) in its buffer, -/
theorem part0_invOut (V : Valuation τ sig (Elt F)) :
    after ops0 V (main_v43 : DevRef τ sig) = invSqrtDeg (V (main_arg1 : DevRef τ sig)) := by
  after_results_simp
  rfl

set_option maxRecDepth 8192 in
set_option maxHeartbeats 2000000 in
/-- and the in-degree factor in its. -/
theorem part0_invIn (V : Valuation τ sig (Elt F)) :
    after ops0 V (main_v46 : DevRef τ sig) = invSqrtDeg (V (main_arg2 : DevRef τ sig)) := by
  after_results_simp
  rfl

set_option maxRecDepth 8192 in
set_option maxHeartbeats 2000000 in
/-- The second piece computes, from the first layer's result and the two factors where the first piece left them, the
    second convolution and the head over it. -/
theorem part1_out (W : Valuation τ sig (Elt F)) :
    after ops1 W (main_v77 : DevRef τ sig)
      = Cert.RefForms.headRef dot_S50000x128_S128x256_S50000x256_1_0_0_1_n_n dot_S50000x256_S256x40_S50000x40_1_0_0_1_n_n bcast_S256_S1x256_1 bcast_S1x256_S50000x256_0_1 bcast_S_S50000x256 bcast_S40_S1x40_1 bcast_S1x40_S50000x40_0_1 bcast_S_S50000x40
          (Cert.RefForms.layerRef dot_S50000x128_S128x128_S50000x128_1_0_0_1_n_n bcast_S50000_S50000x1_0 bcast_S50000x1_S50000x128_0_1 bcast_S128_S1x128_1 bcast_S1x128_S50000x128_0_1 bcast_S_S50000x128
            (aggregate (mulf (W (main_v33 : DevRef τ sig)) (Cert.RefForms.colSpread bcast_S50000_S50000x1_0 bcast_S50000x1_S50000x128_0_1 (W (main_v43 : DevRef τ sig))))
              (W (main_arg1 : DevRef τ sig)) (W (main_arg2 : DevRef τ sig)))
            (W (main_v46 : DevRef τ sig)) (W (main_arg5 : DevRef τ sig)) (W (main_arg6 : DevRef τ sig)))
          (W (main_arg7 : DevRef τ sig)) (W (main_arg8 : DevRef τ sig)) (W (main_arg9 : DevRef τ sig)) (W (main_arg10 : DevRef τ sig)) := by
  after_results_simp
  rfl

/-- Both pieces in a row leave the reference's expression of the eleven arguments in the result buffer. -/
theorem out_eq (V : Valuation τ sig (Elt F)) :
    after (ops0 ++ ops1) V (main_v77 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [StableHlo.after_append, part1_out, part0_conv, part0_invOut, part0_invIn,
    keep0 V (r := main_arg1) (by decide), keep0 V (r := main_arg2) (by decide), keep0 V (r := main_arg5) (by decide),
    keep0 V (r := main_arg6) (by decide), keep0 V (r := main_arg7) (by decide), keep0 V (r := main_arg8) (by decide),
    keep0 V (r := main_arg9) (by decide), keep0 V (r := main_arg10) (by decide)]
  rfl

/-! ## The run -/

/-- On the one device, for any float values, from any memory with zero counters: every weakly fair execution of the
    reference terminates with its result buffer at `refOut` of the eleven arguments' launch contents, and the
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v77).trans (out_eq _),
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide)),
      (h c main_arg7).trans (keep _ (by decide)),
      (h c main_arg8).trans (keep _ (by decide)),
      (h c main_arg9).trans (keep _ (by decide)),
      (h c main_arg10).trans (keep _ (by decide))⟩)
    (run_seq scopedRefs_eq scopedSems_eq defs main (fun _ => ops0 ++ ops1) main_eq (fun _ => ops_sub) m ρ (fun _ => ops_fresh))

end Cert.ReferenceIdeal.RefValue

end
-- ==== Proof.LayerLaws.lean ====
/-
  The reference network's dense layers, entry by entry, on the extended reals.

  The reference writes each layer as an expression of whole arrays: a vector of row factors spread over the columns, a
  bias vector spread over the rows, a matrix product, an entrywise maximum or an entrywise choice. Read at one entry
  (p, q), every spread picks one coordinate of its vector, the product is the finite sum over the contraction
  coordinate, and the entrywise operations act on the entries. What remains is exactly the function of one entry that
  describes a finishing step (max (∑ k, (h p k · a p) · W k q + bias q) 0 · b p) or the two-layer head
  (leaky (∑ j, leaky (∑ k, x p k · W₁ k j + c₁ j) · W₂ j q + c₂ q)).

  No finiteness is used: nothing is distributed or regrouped. The only law of arithmetic is x · 1 = x, for the layer
  whose second scale is the all-ones column.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«107048_j51771535786035_1_alg».proof.Proof.Spec
import proofs.«107048_j51771535786035_1_alg».proof.Proof.RefForms
import proofs.«107048_j51771535786035_1_alg».proof.Proof.LibMatmulPlain
import proofs.«107048_j51771535786035_1_alg».proof.Proof.LibColumnForms

noncomputable section

namespace Cert.LayerLaws

open Idealize.ShloMosaic Idealize.ShloMosaic.ValueIdx Cert.RefForms Cert.Spec

variable {N D E H C : ℕ}

/-- Row factors spread over the columns read, at (p, q), the factor of row p. -/
theorem colSpread_apply (hc1 : (⟨1, ![N]⟩ : Shape).BroadcastsInDim ⟨2, ![N, 1]⟩ (![0] : Fin 1 → Fin 2))
    (hc2 : (⟨2, ![N, 1]⟩ : Shape).BroadcastsInDim ⟨2, ![N, D]⟩ (![0, 1] : Fin 2 → Fin 2))
    (v : FVec Ideal ⟨1, ![N]⟩ .f32) (p : Fin N) (q : Fin D) :
    colSpread hc1 hc2 v (ix2 p q) = v (ix1 p) := by
  unfold colSpread
  refine (broadcastInDim_apply ![0, 1] hc2 _ (ix2 p q) (ix2 p (0 : Fin 1)) fun a => ?_).trans
    (broadcastInDim_apply ![0] hc1 v (ix2 p (0 : Fin 1)) (ix1 p) fun a => ?_)
  · match a with
    | ⟨0, _⟩ =>
      show p.val = if N = 1 then 0 else p.val
      split
      · have := p.isLt; omega
      · rfl
    | ⟨1, _⟩ => rfl
  · match a with
    | ⟨0, _⟩ =>
      show p.val = if N = 1 then 0 else p.val
      split
      · have := p.isLt; omega
      · rfl

/-- A bias vector spread over the rows reads, at (p, q), the bias of column q. -/
theorem rowSpread_apply (hr1 : (⟨1, ![E]⟩ : Shape).BroadcastsInDim ⟨2, ![1, E]⟩ (![1] : Fin 1 → Fin 2))
    (hr2 : (⟨2, ![1, E]⟩ : Shape).BroadcastsInDim ⟨2, ![N, E]⟩ (![0, 1] : Fin 2 → Fin 2))
    (b : FVec Ideal ⟨1, ![E]⟩ .f32) (p : Fin N) (q : Fin E) :
    rowSpread hr1 hr2 b (ix2 p q) = b (ix1 q) := by
  unfold rowSpread
  refine (broadcastInDim_apply ![0, 1] hr2 _ (ix2 p q) (ix2 (0 : Fin 1) q) fun a => ?_).trans
    (broadcastInDim_apply ![1] hr1 b (ix2 (0 : Fin 1) q) (ix1 q) fun a => ?_)
  · match a with
    | ⟨0, _⟩ => rfl
    | ⟨1, _⟩ =>
      show q.val = if E = 1 then 0 else q.val
      split
      · have := q.isLt; omega
      · rfl
  · match a with
    | ⟨0, _⟩ =>
      show q.val = if E = 1 then 0 else q.val
      split
      · have := q.isLt; omega
      · rfl

/-- The array holding one word everywhere reads that word's value at every entry. -/
theorem splat_apply (hz : (⟨0, ![]⟩ : Shape).BroadcastsInDim ⟨2, ![N, E]⟩ (![] : Fin 0 → Fin 2)) (w : BitVec 32)
    (p : Fin N) (q : Fin E) : splat (F := Ideal) hz w (ix2 p q) = Ideal.ofBits .f32 w := by
  unfold splat
  exact (broadcastInDim_scalar_apply hz _ (ix2 p q)).trans (constant_apply (s := ⟨0, ![]⟩) (φ := .f32) w ix0)

/-- A vector viewed as a one-row array reads, at (0, q), its entry q. -/
theorem rowCast_apply (b : FVec Ideal ⟨1, ![E]⟩ .f32) (hsb : (⟨1, ![E]⟩ : Shape).ShapeCasts ⟨2, ![1, E]⟩) (q : Fin E) :
    shapeCast ⟨2, ![1, E]⟩ b hsb (ix2 (0 : Fin 1) q) = b (ix1 q) :=
  shapeCast_apply b hsb _ _ (by
    rw [Shape.rowMajor_val_two, Shape.rowMajor_val_one]
    show q.val = 0 * E + q.val
    rw [Nat.zero_mul, Nat.zero_add])

/-- The reference's plain product of an [M, K] array by a [K, L] array is, at (p, q), the sum over the
    contraction coordinate of left (p, k) · right (k, q). -/
theorem dotGeneral_plain_apply {M K L : ℕ} (l : FVec Ideal ⟨2, ![M, K]⟩ .f32) (r : FVec Ideal ⟨2, ![K, L]⟩ .f32)
    (p : Fin M) (q : Fin L) :
    Host.dotGeneral (F := Ideal) (DotDims.plain M K L) none l r (ix2 p q) = ∑ k : Fin K, l (ix2 p k) * r (ix2 k q) :=
  (Ideal.dotGeneral_apply (DotDims.plain M K L) none .single l r (ix2 p q)).trans
    ((Ideal.matmul_constant_zero_apply (DotDims.plain M K L) none l r (ix2 p q)).symm.trans
      (MatmulPlain.matmul_zero_apply none l r p q))

/-- The leaky rectifier on an array is, entry by entry, the leaky rectifier on one extended real. -/
theorem leakyRef_apply (hz : (⟨0, ![]⟩ : Shape).BroadcastsInDim ⟨2, ![N, E]⟩ (![] : Fin 0 → Fin 2))
    (y : FVec Ideal ⟨2, ![N, E]⟩ .f32) (p : Fin N) (q : Fin E) :
    leakyRef (F := Ideal) hz y (ix2 p q) = leaky (y (ix2 p q)) := by
  unfold leakyRef leaky
  rw [select_apply, cmpf_apply, mulf_apply, splat_apply]
  exact congrArg (fun c => Scalar.select (FloatOps.cmpf .oge (y (ix2 p q)) zeroW) (y (ix2 p q)) (c * y (ix2 p q)))
    ((broadcastInDim_scalar_apply hz _ (ix2 p q)).trans (constant_apply (s := ⟨0, ![]⟩) (φ := .f32) 0x3C23D70A#32 ix0))

/-- One layer of the reference, entry (p, q): the row of h scaled by its factor, times the weights, plus the bias,
    clipped below at zero. -/
theorem layerRef_apply (hc1 : (⟨1, ![N]⟩ : Shape).BroadcastsInDim ⟨2, ![N, 1]⟩ (![0] : Fin 1 → Fin 2))
    (hc2 : (⟨2, ![N, 1]⟩ : Shape).BroadcastsInDim ⟨2, ![N, D]⟩ (![0, 1] : Fin 2 → Fin 2))
    (hr1 : (⟨1, ![E]⟩ : Shape).BroadcastsInDim ⟨2, ![1, E]⟩ (![1] : Fin 1 → Fin 2))
    (hr2 : (⟨2, ![1, E]⟩ : Shape).BroadcastsInDim ⟨2, ![N, E]⟩ (![0, 1] : Fin 2 → Fin 2))
    (hz : (⟨0, ![]⟩ : Shape).BroadcastsInDim ⟨2, ![N, E]⟩ (![] : Fin 0 → Fin 2))
    (h : FVec Ideal ⟨2, ![N, D]⟩ .f32) (ii : FVec Ideal ⟨1, ![N]⟩ .f32) (W : FVec Ideal ⟨2, ![D, E]⟩ .f32)
    (b : FVec Ideal ⟨1, ![E]⟩ .f32) (p : Fin N) (q : Fin E) :
    layerRef (F := Ideal) (DotDims.plain N D E) hc1 hc2 hr1 hr2 hz h ii W b (ix2 p q)
      = max ((∑ k : Fin D, (h (ix2 p k) * ii (ix1 p)) * W (ix2 k q)) + b (ix1 q)) zeroW := by
  unfold layerRef
  rw [maximumf_apply, addf_apply, dotGeneral_plain_apply, rowSpread_apply, splat_apply]
  simp only [mulf_apply, colSpread_apply]

/-- A layer of the reference followed by a second row scaling is a finishing step whose two scales are the row
    factors viewed as columns and whose bias is the bias vector viewed as a row. -/
theorem layerRef_scaled_eq_stage (dd : DotDims ⟨2, ![N, D]⟩ ⟨2, ![D, E]⟩ ⟨2, ![N, E]⟩) (hdd : dd = DotDims.plain N D E)
    (hc1 : (⟨1, ![N]⟩ : Shape).BroadcastsInDim ⟨2, ![N, 1]⟩ (![0] : Fin 1 → Fin 2))
    (hc2 : (⟨2, ![N, 1]⟩ : Shape).BroadcastsInDim ⟨2, ![N, D]⟩ (![0, 1] : Fin 2 → Fin 2))
    (hc2' : (⟨2, ![N, 1]⟩ : Shape).BroadcastsInDim ⟨2, ![N, E]⟩ (![0, 1] : Fin 2 → Fin 2))
    (hr1 : (⟨1, ![E]⟩ : Shape).BroadcastsInDim ⟨2, ![1, E]⟩ (![1] : Fin 1 → Fin 2))
    (hr2 : (⟨2, ![1, E]⟩ : Shape).BroadcastsInDim ⟨2, ![N, E]⟩ (![0, 1] : Fin 2 → Fin 2))
    (hz : (⟨0, ![]⟩ : Shape).BroadcastsInDim ⟨2, ![N, E]⟩ (![] : Fin 0 → Fin 2))
    (hs : (⟨1, ![N]⟩ : Shape).ShapeCasts ⟨2, ![N, 1]⟩) (hsb : (⟨1, ![E]⟩ : Shape).ShapeCasts ⟨2, ![1, E]⟩)
    (h : FVec Ideal ⟨2, ![N, D]⟩ .f32) (ii io : FVec Ideal ⟨1, ![N]⟩ .f32) (W : FVec Ideal ⟨2, ![D, E]⟩ .f32)
    (b : FVec Ideal ⟨1, ![E]⟩ .f32) :
    mulf (layerRef (F := Ideal) dd hc1 hc2 hr1 hr2 hz h ii W b) (colSpread hc1 hc2' io)
      = stageArr h (shapeCast ⟨2, ![N, 1]⟩ ii hs) (shapeCast ⟨2, ![N, 1]⟩ io hs) W (shapeCast ⟨2, ![1, E]⟩ b hsb) := by
  subst hdd
  funext i
  obtain ⟨p, q, rfl⟩ : ∃ p q, i = ix2 p q := ⟨i 0, i 1, eq_ix2 i⟩
  rw [stageArr_apply, mulf_apply, layerRef_apply, colSpread_apply]
  unfold stageAt
  rw [ColumnForms.shapeCast_a_a1_apply, ColumnForms.shapeCast_a_a1_apply, rowCast_apply]

/-- A layer of the reference with no second scaling is a finishing step whose second scale is the all-ones column:
    the word 0x3F800000 is the number 1, and x · 1 = x on the extended reals. -/
theorem layerRef_eq_stage_ones (dd : DotDims ⟨2, ![N, D]⟩ ⟨2, ![D, E]⟩ ⟨2, ![N, E]⟩) (hdd : dd = DotDims.plain N D E)
    (hc1 : (⟨1, ![N]⟩ : Shape).BroadcastsInDim ⟨2, ![N, 1]⟩ (![0] : Fin 1 → Fin 2))
    (hc2 : (⟨2, ![N, 1]⟩ : Shape).BroadcastsInDim ⟨2, ![N, D]⟩ (![0, 1] : Fin 2 → Fin 2))
    (hr1 : (⟨1, ![E]⟩ : Shape).BroadcastsInDim ⟨2, ![1, E]⟩ (![1] : Fin 1 → Fin 2))
    (hr2 : (⟨2, ![1, E]⟩ : Shape).BroadcastsInDim ⟨2, ![N, E]⟩ (![0, 1] : Fin 2 → Fin 2))
    (hz : (⟨0, ![]⟩ : Shape).BroadcastsInDim ⟨2, ![N, E]⟩ (![] : Fin 0 → Fin 2))
    (hs : (⟨1, ![N]⟩ : Shape).ShapeCasts ⟨2, ![N, 1]⟩) (hsb : (⟨1, ![E]⟩ : Shape).ShapeCasts ⟨2, ![1, E]⟩)
    (hone : (⟨0, ![]⟩ : Shape).BroadcastsInDim ⟨1, ![N]⟩ (![] : Fin 0 → Fin 1))
    (h : FVec Ideal ⟨2, ![N, D]⟩ .f32) (ii : FVec Ideal ⟨1, ![N]⟩ .f32) (W : FVec Ideal ⟨2, ![D, E]⟩ .f32)
    (b : FVec Ideal ⟨1, ![E]⟩ .f32) :
    layerRef (F := Ideal) dd hc1 hc2 hr1 hr2 hz h ii W b
      = stageArr h (shapeCast ⟨2, ![N, 1]⟩ ii hs)
          (shapeCast ⟨2, ![N, 1]⟩ (broadcastInDim ⟨1, ![N]⟩ ![] hone (constant (F := Ideal) ⟨0, ![]⟩ .f32 0x3F800000#32)) hs)
          W (shapeCast ⟨2, ![1, E]⟩ b hsb) := by
  subst hdd
  funext i
  obtain ⟨p, q, rfl⟩ : ∃ p q, i = ix2 p q := ⟨i 0, i 1, eq_ix2 i⟩
  rw [stageArr_apply, layerRef_apply]
  unfold stageAt
  rw [ColumnForms.shapeCast_a_a1_apply, ColumnForms.shapeCast_a_a1_apply, rowCast_apply,
    broadcastInDim_scalar_apply, constant_apply, Ideal.ofBits_one_f32, mul_one]

/-- The reference's two-layer head is, entry by entry, the head function, its two bias vectors viewed as rows. -/
theorem headRef_eq_mlp (dd1 : DotDims ⟨2, ![N, D]⟩ ⟨2, ![D, H]⟩ ⟨2, ![N, H]⟩) (hdd1 : dd1 = DotDims.plain N D H)
    (dd2 : DotDims ⟨2, ![N, H]⟩ ⟨2, ![H, C]⟩ ⟨2, ![N, C]⟩) (hdd2 : dd2 = DotDims.plain N H C)
    (h1r1 : (⟨1, ![H]⟩ : Shape).BroadcastsInDim ⟨2, ![1, H]⟩ (![1] : Fin 1 → Fin 2))
    (h1r2 : (⟨2, ![1, H]⟩ : Shape).BroadcastsInDim ⟨2, ![N, H]⟩ (![0, 1] : Fin 2 → Fin 2))
    (h1z : (⟨0, ![]⟩ : Shape).BroadcastsInDim ⟨2, ![N, H]⟩ (![] : Fin 0 → Fin 2))
    (h2r1 : (⟨1, ![C]⟩ : Shape).BroadcastsInDim ⟨2, ![1, C]⟩ (![1] : Fin 1 → Fin 2))
    (h2r2 : (⟨2, ![1, C]⟩ : Shape).BroadcastsInDim ⟨2, ![N, C]⟩ (![0, 1] : Fin 2 → Fin 2))
    (h2z : (⟨0, ![]⟩ : Shape).BroadcastsInDim ⟨2, ![N, C]⟩ (![] : Fin 0 → Fin 2))
    (hs1 : (⟨1, ![H]⟩ : Shape).ShapeCasts ⟨2, ![1, H]⟩) (hs2 : (⟨1, ![C]⟩ : Shape).ShapeCasts ⟨2, ![1, C]⟩)
    (x : FVec Ideal ⟨2, ![N, D]⟩ .f32) (W1 : FVec Ideal ⟨2, ![D, H]⟩ .f32) (c1 : FVec Ideal ⟨1, ![H]⟩ .f32)
    (W2 : FVec Ideal ⟨2, ![H, C]⟩ .f32) (c2 : FVec Ideal ⟨1, ![C]⟩ .f32) :
    headRef (F := Ideal) dd1 dd2 h1r1 h1r2 h1z h2r1 h2r2 h2z x W1 c1 W2 c2
      = mlpArr x W1 (shapeCast ⟨2, ![1, H]⟩ c1 hs1) W2 (shapeCast ⟨2, ![1, C]⟩ c2 hs2) := by
  subst hdd1 hdd2
  funext i
  obtain ⟨p, q, rfl⟩ : ∃ p q, i = ix2 p q := ⟨i 0, i 1, eq_ix2 i⟩
  rw [mlpArr_apply]
  unfold headRef mlpAt hiddenAt
  rw [leakyRef_apply, addf_apply, dotGeneral_plain_apply, rowSpread_apply, rowCast_apply]
  simp only [leakyRef_apply, addf_apply, dotGeneral_plain_apply, rowSpread_apply, rowCast_apply]

end Cert.LayerLaws

end
-- ==== Proof.lean ====
/-
  A two-layer graph convolution followed by a two-layer head, over 50000 nodes and 800000 edges.

  Both programs compute, on the extended reals,
      io = 1/sqrt(max(out-degree, 1)),  ii = 1/sqrt(max(in-degree, 1)),
      h₁ = max (((aggregate (x ⊙ io)) ⊙ ii) · W₁ + b₁, 0),
      h₂ = max (((aggregate (h₁ ⊙ io)) ⊙ ii) · W₂ + b₂, 0),
      out = leaky (leaky (h₂ · Wd₁ + bd₁) · Wd₂ + bd₂),
  where aggregate gathers rows at the edges' sources and adds them into the edges' destinations. The reference does
  all of it on whole arrays. The kernel program keeps the degree counts and the two aggregations as the same whole-array
  operations and runs the three dense steps block by block, 5000 rows at a time: the first dense step already multiplies
  its result by io (so the second gather reads scaled rows), the second multiplies by an all-ones column (x · 1 = x).
  A block of rows of a dense step depends on the same rows of its row-indexed operands only, so the blocks assemble to
  the whole-array function; entry by entry that function is the reference's expression (a matrix product is the same
  finite sum on both sides; no law beyond x · 1 = x is used, so the precondition is never opened). The degree factors,
  the index wrap and the aggregation are literally the same operations in both programs and are never opened.
-/
import proofs.«107048_j51771535786035_1_alg».proof.Defs
import proofs.«107048_j51771535786035_1_alg».proof.Proof.Gen.Kernel
import proofs.«107048_j51771535786035_1_alg».proof.Proof.Gen.KernelIdeal
import proofs.«107048_j51771535786035_1_alg».proof.Proof.Gen.ReferenceIdeal
import proofs.«107048_j51771535786035_1_alg».proof.Proof.Gen.Pre_finite_inputs
import proofs.«107048_j51771535786035_1_alg».proof.Proof.KernelFrameP
import proofs.«107048_j51771535786035_1_alg».proof.Proof.KernelIdealFrameP
import proofs.«107048_j51771535786035_1_alg».proof.Proof.KernelIdealRunP
import proofs.«107048_j51771535786035_1_alg».proof.Proof.KernelValue
import proofs.«107048_j51771535786035_1_alg».proof.Proof.RefRun
import proofs.«107048_j51771535786035_1_alg».proof.Proof.LayerLaws
import Idealize.ShloMosaic.Adequacy
import Idealize.ShloMosaic.Init

set_option maxRecDepth 16384

noncomputable section

namespace Cert.Proof

open Idealize.ShloMosaic Idealize.ShloMosaic.TcCoe Idealize.SL.Sem

/-- The degree factor is one and the same whole-array expression in the two programs. -/
theorem invSqrtDeg_same : (Cert.KernelIdeal.KValue.invSqrtDeg (F := Ideal)) = Cert.ReferenceIdeal.RefValue.invSqrtDeg (F := Ideal) := rfl

/-- So is the neighbour sum. -/
theorem aggregate_same : (Cert.KernelIdeal.KValue.aggregate (F := Ideal)) = Cert.ReferenceIdeal.RefValue.aggregate (F := Ideal) := rfl

/-- The reference's result is the kernel program's, as functions of the eleven arguments: the head and the two dense
    layers are rewritten entry-wise (the first layer together with its scaling by the source factor, the second with the
    all-ones column), after which the two expressions coincide. -/
theorem same_function (a0 : FVec Ideal Cert.KernelIdeal.S50000x128 .f32) (a1 a2 : (⟨Cert.KernelIdeal.S800000, .i32⟩ : BufTy).Contents (Elt Ideal))
    (a3 : FVec Ideal Cert.KernelIdeal.S128x128 .f32) (a4 : FVec Ideal Cert.KernelIdeal.S128 .f32) (a5 : FVec Ideal Cert.KernelIdeal.S128x128 .f32) (a6 : FVec Ideal Cert.KernelIdeal.S128 .f32)
    (a7 : FVec Ideal Cert.KernelIdeal.S128x256 .f32) (a8 : FVec Ideal Cert.KernelIdeal.S256 .f32) (a9 : FVec Ideal Cert.KernelIdeal.S256x40 .f32) (a10 : FVec Ideal Cert.KernelIdeal.S40 .f32) :
    Cert.ReferenceIdeal.RefValue.refOut (F := Ideal) a0 a1 a2 a3 a4 a5 a6 a7 a8 a9 a10 = Cert.KernelIdeal.KValue.kerOut a0 a1 a2 a3 a4 a5 a6 a7 a8 a9 a10 := by
  unfold Cert.ReferenceIdeal.RefValue.refOut Cert.ReferenceIdeal.RefValue.conv
  rw [Cert.LayerLaws.headRef_eq_mlp Cert.ReferenceIdeal.dot_S50000x128_S128x256_S50000x256_1_0_0_1_n_n rfl Cert.ReferenceIdeal.dot_S50000x256_S256x40_S50000x40_1_0_0_1_n_n rfl _ _ _ _ _ _ Cert.KernelIdeal.Gen.shapeCasts_S256_S1x256 Cert.KernelIdeal.Gen.shapeCasts_S40_S1x40,
    Cert.LayerLaws.layerRef_scaled_eq_stage Cert.ReferenceIdeal.dot_S50000x128_S128x128_S50000x128_1_0_0_1_n_n rfl _ _ _ _ _ _ Cert.KernelIdeal.Gen.shapeCasts_S50000_S50000x1 Cert.KernelIdeal.Gen.shapeCasts_S128_S1x128,
    Cert.LayerLaws.layerRef_eq_stage_ones Cert.ReferenceIdeal.dot_S50000x128_S128x128_S50000x128_1_0_0_1_n_n rfl _ _ _ _ _ Cert.KernelIdeal.Gen.shapeCasts_S50000_S50000x1 Cert.KernelIdeal.Gen.shapeCasts_S128_S1x128 Cert.KernelIdeal.Gen.bcast_S_S50000,
    ← invSqrtDeg_same, ← aggregate_same]
  rfl

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- Both idealized programs end with the result array at the kernel program's function of the arguments. -/
theorem algebraic : Cert.algebraic_KernelIdeal_ReferenceIdeal := by
  intro m ρ m' ρ' _ hagree
  refine ⟨fun c => Cert.KernelIdeal.KValue.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.KValue.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5, e6, e7, e8, e9, e10⟩ := hagree c
    rw [e0, e1, e2, e3, e4, e5, e6, e7, e8, e9, e10]
    exact same_function _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
